-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S128 .f32) (main_arg10 : FVec F S256x128 .f32) (main_arg11 : FVec F S128 .f32) (main_arg12 : FVec F S256x2 .f32) (main_arg13 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x2 .f32 := Host.absf main_arg12
  let main_cst_18 : FVec F S_ .f32 := constant S_ .f32 0x7F800000#32
  let main_v50 : FVec F S256x2 .f32 := broadcastInDim S256x2 ![] bcast_S_S256x2 main_cst_18
  fn_part3 (F := F) main_arg13 main_v48 main_v49 main_v50

def fn_part1 {F : FTy → Type} [FloatOps F] (main_arg6 : FVec F S256x128 .f32) (main_arg7 : FVec F S128 .f32) (main_arg8 : FVec F S192x128 .f32) (main_arg9 : FVec F S128 .f32) (main_arg10 : FVec F S256x128 .f32) (main_arg11 : FVec F S128 .f32) (main_arg12 : FVec F S256x2 .f32) (main_arg13 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x128 .f32 := Host.absf main_arg8
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : FVec F S800000x64 .f32) (main_arg2 : IVec S800000 32) (main_arg3 : IVec S800000 32) (main_arg4 : FVec F S192x128 .f32) (main_arg5 : FVec F S128 .f32) (main_arg6 : FVec F S256x128 .f32) (main_arg7 : FVec F S128 .f32) (main_arg8 : FVec F S192x128 .f32) (main_arg9 : FVec F S128 .f32) (main_arg10 : FVec F S256x128 .f32) (main_arg11 : FVec F S128 .f32) (main_arg12 : FVec F S256x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩
abbrev S8000x192 : Shape := ⟨2, ![8000, 192]⟩
abbrev S8000x128 : Shape := ⟨2, ![8000, 128]⟩
abbrev S50000x1 : Shape := ⟨2, ![50000, 1]⟩
abbrev S50000x256 : Shape := ⟨2, ![50000, 256]⟩
abbrev S5000x256 : Shape := ⟨2, ![5000, 256]⟩
abbrev S5000x128 : Shape := ⟨2, ![5000, 128]⟩
abbrev S800000x256 : Shape := ⟨2, ![800000, 256]⟩
abbrev S1x2 : Shape := ⟨2, ![1, 2]⟩
abbrev S800000x2 : Shape := ⟨2, ![800000, 2]⟩
abbrev S8000x256 : Shape := ⟨2, ![8000, 256]⟩
abbrev S8000x2 : Shape := ⟨2, ![8000, 2]⟩

abbrev nBuf : Space → Nat
  | .hbm => 95
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S192x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x2, .f32⟩
  | .hbm, ⟨13, _⟩ => ⟨S2, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x192, .f32⟩
  | .hbm, ⟨24, _⟩ => ⟨S1x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000x1, .f32⟩
  | .hbm, ⟨32, _⟩ => ⟨S_, .f32⟩
  | .hbm, ⟨33, _⟩ => ⟨S50000x1, .f32⟩
  | .hbm, ⟨34, _⟩ => ⟨S800000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x256, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S800000x192, .f32⟩
  | .hbm, ⟨54, _⟩ => ⟨S1x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x256, .f32⟩
  | .hbm, ⟨72, _⟩ => ⟨S1x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S800000x256, .f32⟩
  | .hbm, ⟨93, _⟩ => ⟨S1x2, .f32⟩
  | .hbm, ⟨94, _⟩ => ⟨S800000x2, .f32⟩
  | .local _ .vmem, ⟨0, _⟩ => ⟨S8000x192, .f32⟩
  | .local _ .vmem, ⟨1, _⟩ => ⟨S8000x192, .f32⟩
  | .local _ .vmem, ⟨2, _⟩ => ⟨S192x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S8000x192, .f32⟩
  | .local _ .vmem, ⟨13, _⟩ => ⟨S8000x192, .f32⟩
  | .local _ .vmem, ⟨14, _⟩ => ⟨S192x128, .f32⟩
  | .local _ .vmem, ⟨15, _⟩ => ⟨S1x128, .f32⟩
  | .local _ .vmem, ⟨16, _⟩ => ⟨S8000x128, .f32⟩
  | .local _ .vmem, ⟨17, _⟩ => ⟨S8000x128, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S8000x256, .f32⟩
  | .local _ .vmem, ⟨25, _⟩ => ⟨S8000x256, .f32⟩
  | .local _ .vmem, ⟨26, _⟩ => ⟨S256x2, .f32⟩
  | .local _ .vmem, ⟨27, _⟩ => ⟨S1x2, .f32⟩
  | .local _ .vmem, ⟨28, _⟩ => ⟨S8000x2, .f32⟩
  | .local _ .vmem, ⟨29, _⟩ => ⟨S8000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  shapeCasts_S128_S1x128 : S128.ShapeCasts S1x128
  inb_S8000x192_S8000x192_0_0 : ∀ a, (![0, 0] : Fin 2 → Nat) a + S8000x192.size a ≤ S8000x192.size a
  h_S8000x192 : 0 < S8000x192.numel
  shapeCasts_S8000x192_S8000x192 : S8000x192.ShapeCasts S8000x192
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S800000x128_S800000x128_S800000x256_d1 : Shape.Concatenates [S800000x128, S800000x128] S800000x256 1
  shapeCasts_S2_S1x2 : S2.ShapeCasts S1x2
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  gather_S50000x128_S800000x1_S800000x128_1_0_n_n_0_1_1128_wf : GatherDims.WF S50000x128 S800000x1 S800000x128 [1] [0] [] [0] [] 1 ![1, 128]
  dot_S8000x192_S192x128_S8000x128_1_0_0_1_n_n_wf : DotDims.WF S8000x192 S192x128 S8000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x256_S256x128_S5000x128_1_0_0_1_n_n_wf : DotDims.WF S5000x256 S256x128 S5000x128 [1] [0] [0] [1] [] []
  dot_S8000x256_S256x2_S8000x2_1_0_0_1_n_n_wf : DotDims.WF S8000x256 S256x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x192.size a ≤ S800000x192.size a
  hwx0_0 : ∀ i : grid0.Coords, EltTy.bits .f32 = 32 ∨ (Rect.block (s := S800000x192) S8000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .f32 = 32 ∨ (Rect.block (s := S192x128) S192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S800000x128.size a
  hwx0_3 : ∀ i : grid0.Coords, EltTy.bits .f32 = 32 ∨ (Rect.block (s := S800000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x192.size a ≤ S800000x192.size a
  hwx2_0 : ∀ i : grid2.Coords, EltTy.bits .f32 = 32 ∨ (Rect.block (s := S800000x192) S8000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x128.size a ≤ S192x128.size a
  hwx2_1 : ∀ i : grid2.Coords, EltTy.bits .f32 = 32 ∨ (Rect.block (s := S192x128) S192x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S800000x128.size a
  hwx2_3 : ∀ i : grid2.Coords, EltTy.bits .f32 = 32 ∨ (Rect.block (s := S800000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x256.size a ≤ S800000x256.size a
  hwx4_0 : ∀ i : grid4.Coords, EltTy.bits .f32 = 32 ∨ (Rect.block (s := S800000x256) S8000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x2.size a ≤ S256x2.size a
  hwx4_1 : ∀ i : grid4.Coords, EltTy.bits .f32 = 32 ∨ (Rect.block (s := S256x2) S256x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x2.size a ≤ S800000x2.size a
  hwx4_3 : ∀ i : grid4.Coords, EltTy.bits .f32 = 32 ∨ (Rect.block (s := S800000x2) S8000x2.size (cc4_transform_3 i) (hinb4_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x192_S192x128_S8000x128_1_0_0_1_n_n : DotDims S8000x192 S192x128 S8000x128 where
  lhsContracting := [1]
  rhsContracting := [0]
  lhsNonContracting := [0]
  rhsNonContracting := [1]
  lhsBatch := []
  rhsBatch := []
  wf := dot_S8000x192_S192x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S8000x256_S256x2_S8000x2_1_0_0_1_n_n : DotDims S8000x256 S256x2 S8000x2 where
  lhsContracting := [1]
  rhsContracting := [0]
  lhsNonContracting := [0]
  rhsNonContracting := [1]
  lhsBatch := []
  rhsBatch := []
  wf := dot_S8000x256_S256x2_S8000x2_1_0_0_1_n_n_wf

abbrev win0_0 : Pipeline.Window sig grid0 :=
  Pipeline.Window.ofSpec (Memref.whole main_v7) S8000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S8000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S8000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S256x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S8000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S800000 : Shape := ⟨1, ![800000]⟩
abbrev S192x128 : Shape := ⟨2, ![192, 128]⟩
abbrev S128 : Shape := ⟨1, ![128]⟩
abbrev S256x128 : Shape := ⟨2, ![256, 128]⟩
abbrev S256x2 : Shape := ⟨2, ![256, 2]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩
abbrev S50000x1 : Shape := ⟨2, ![50000, 1]⟩
abbrev S50000x256 : Shape := ⟨2, ![50000, 256]⟩
abbrev S800000x256 : Shape := ⟨2, ![800000, 256]⟩
abbrev S800000x2 : Shape := ⟨2, ![800000, 2]⟩
abbrev S1x2 : Shape := ⟨2, ![1, 2]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S192x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x2, .f32⟩
  | .hbm, ⟨13, _⟩ => ⟨S2, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x192, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .f32⟩
  | .hbm, ⟨33, _⟩ => ⟨S800000x1, .f32⟩
  | .hbm, ⟨34, _⟩ => ⟨S_, .f32⟩
  | .hbm, ⟨35, _⟩ => ⟨S50000x1, .f32⟩
  | .hbm, ⟨36, _⟩ => ⟨S800000x1, .i32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x192, .f32⟩
  | .hbm, ⟨61, _⟩ => ⟨S800000x128, .f32⟩
  | .hbm, ⟨62, _⟩ => ⟨S1x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S800000x1, .f32⟩
  | .hbm, ⟨71, _⟩ => ⟨S_, .f32⟩
  | .hbm, ⟨72, _⟩ => ⟨S50000x1, .f32⟩
  | .hbm, ⟨73, _⟩ => ⟨S800000x1, .i32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x256, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x256, .f32⟩
  | .hbm, ⟨107, _⟩ => ⟨S800000x2, .f32⟩
  | .hbm, ⟨108, _⟩ => ⟨S1x2, .f32⟩
  | .hbm, ⟨109, _⟩ => ⟨S800000x2, .f32⟩
  | .hbm, ⟨110, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call1_cst : Ref sig .tc := ⟨.hbm, 85, rfl⟩
abbrev main_call1_v0 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x256_S256x128_S50000x128_1_0_0_1_n_n_wf : DotDims.WF S50000x256 S256x128 S50000x128 [1] [0] [0] [1] [] []
  dot_S800000x256_S256x2_S800000x2_1_0_0_1_n_n_wf : DotDims.WF S800000x256 S256x2 S800000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x256_S256x2_S800000x2_1_0_0_1_n_n : DotDims S800000x256 S256x2 S800000x2 where
  lhsContracting := [1]
  rhsContracting := [0]
  lhsNonContracting := [0]
  rhsNonContracting := [1]
  lhsBatch := []
  rhsBatch := []
  wf := dot_S800000x256_S256x2_S800000x2_1_0_0_1_n_n_wf

class Facts : Prop extends Facts₀ where

variable [Facts]
-- ==== Proof.Model.lean ====
/-
  The two-layer edge-conditioned graph network that both programs compute, as one function of the fourteen
  argument arrays, built from named stages.

  Nodes carry `h : [50000, 128]`, edges carry `e : [800000, 64]` and have a source `src` and a destination `dst`
  (index words; a negative word is wrapped once by the number of nodes before the row is taken).
  One layer: each edge's message input is its source node's row beside its own features (`msgIn`); an affine
  layer `L` turns it into a message; the messages are summed into their destination nodes and divided by the
  number of incoming edges, at least one (`meanAgg`); a node's update input is its own row beside that mean
  (`updIn`); a second affine layer `U` (with its maximum against zero) gives the node's new row. After two layers
  an edge's score input is its source's row beside its destination's row (`predIn`), and a last affine layer `S`
  gives the two scores. The three affine layers are parameters of `network`: the two programs differ only in how
  they state them.
-/
import proofs.«103565_j56057913147666_1_alg».proof.Proof.Gen.ReferenceIdeal

noncomputable section

namespace Cert.Sage

open Idealize.ShloMosaic Cert.ReferenceIdeal Cert.ReferenceIdeal.Facts₀

variable {F : FTy → Type} [FloatOps F]

/-- The index words as a column, a negative word first wrapped by the number of nodes. -/
def wrapCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of `h` the index words name, one per edge. -/
def takeRows (h : (⟨S50000x128, .f32⟩ : BufTy).Contents (Elt F)) (s : (⟨S800000, .i32⟩ : BufTy).Contents (Elt F)) :
    (⟨S800000x128, .f32⟩ : BufTy).Contents (Elt F) :=
  Host.gather gather_S50000x128_S800000x1_S800000x128_1_0_n_n_0_1_1128 h (wrapCol s)

/-- An edge's message input: its source node's row beside its own features. -/
def msgIn (h : (⟨S50000x128, .f32⟩ : BufTy).Contents (Elt F)) (e : (⟨S800000x64, .f32⟩ : BufTy).Contents (Elt F))
    (src : (⟨S800000, .i32⟩ : BufTy).Contents (Elt F)) : (⟨S800000x192, .f32⟩ : BufTy).Contents (Elt F) :=
  concatenate S800000x192 1 [⟨S800000x128, takeRows h src⟩, ⟨S800000x64, e⟩] concatenates_S800000x128_S800000x64_S800000x192_d1

/-- The messages summed into their destination nodes, divided by the number of incoming edges or by one. -/
def meanAgg (mm : (⟨S800000x128, .f32⟩ : BufTy).Contents (Elt F)) (dst : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) mm)
    (broadcastInDim S50000x128 ![0, 1] bcast_S50000x1_S50000x128_0_1
      (maximumf
        (Host.scatterAdd scatter_S50000x1_S800000x1_S800000x1_1_0_0_1
          (broadcastInDim S50000x1 ![] bcast_S_S50000x1 (constant S_ .f32 0x00000000#32))
          (broadcastInDim S800000x1 ![0] bcast_S800000_S800000x1_0 dst)
          (broadcastInDim S800000x1 ![] bcast_S_S800000x1 (constant S_ .f32 0x3F800000#32)))
        (broadcastInDim S50000x1 ![] bcast_S_S50000x1 (constant S_ .f32 0x3F800000#32))))

/-- A node's update input: its own row beside the mean of its incoming messages. -/
def updIn (h : (⟨S50000x128, .f32⟩ : BufTy).Contents (Elt F)) (mm : (⟨S800000x128, .f32⟩ : BufTy).Contents (Elt F))
    (dst : (⟨S800000, .i32⟩ : BufTy).Contents (Elt F)) : (⟨S50000x256, .f32⟩ : BufTy).Contents (Elt F) :=
  concatenate S50000x256 1 [⟨S50000x128, h⟩, ⟨S50000x128, meanAgg mm dst⟩] concatenates_S50000x128_S50000x128_S50000x256_d1

/-- An edge's score input: its source node's row beside its destination node's row. -/
def predIn (h : (⟨S50000x128, .f32⟩ : BufTy).Contents (Elt F)) (src dst : (⟨S800000, .i32⟩ : BufTy).Contents (Elt F)) :
    (⟨S800000x256, .f32⟩ : BufTy).Contents (Elt F) :=
  concatenate S800000x256 1 [⟨S800000x128, takeRows h src⟩, ⟨S800000x128, takeRows h dst⟩] concatenates_S800000x128_S800000x128_S800000x256_d1

/-- The network over its three kinds of affine layer: `L` on message inputs, `U` on update inputs, `S` on score
    inputs, each taking its weights and its bias vector. -/
def network
    (L : (⟨S800000x192, .f32⟩ : BufTy).Contents (Elt F) → (⟨S192x128, .f32⟩ : BufTy).Contents (Elt F) →
      (⟨S128, .f32⟩ : BufTy).Contents (Elt F) → (⟨S800000x128, .f32⟩ : BufTy).Contents (Elt F))
    (U : (⟨S50000x256, .f32⟩ : BufTy).Contents (Elt F) → (⟨S256x128, .f32⟩ : BufTy).Contents (Elt F) →
      (⟨S128, .f32⟩ : BufTy).Contents (Elt F) → (⟨S50000x128, .f32⟩ : BufTy).Contents (Elt F))
    (S : (⟨S800000x256, .f32⟩ : BufTy).Contents (Elt F) → (⟨S256x2, .f32⟩ : BufTy).Contents (Elt F) →
      (⟨S2, .f32⟩ : BufTy).Contents (Elt F) → (⟨S800000x2, .f32⟩ : BufTy).Contents (Elt F))
    (nf : (⟨S50000x128, .f32⟩ : BufTy).Contents (Elt F)) (ef : (⟨S800000x64, .f32⟩ : BufTy).Contents (Elt F))
    (src dst : (⟨S800000, .i32⟩ : BufTy).Contents (Elt F))
    (Wm1 : (⟨S192x128, .f32⟩ : BufTy).Contents (Elt F)) (bm1 : (⟨S128, .f32⟩ : BufTy).Contents (Elt F))
    (Wa1 : (⟨S256x128, .f32⟩ : BufTy).Contents (Elt F)) (ba1 : (⟨S128, .f32⟩ : BufTy).Contents (Elt F))
    (Wm2 : (⟨S192x128, .f32⟩ : BufTy).Contents (Elt F)) (bm2 : (⟨S128, .f32⟩ : BufTy).Contents (Elt F))
    (Wa2 : (⟨S256x128, .f32⟩ : BufTy).Contents (Elt F)) (ba2 : (⟨S128, .f32⟩ : BufTy).Contents (Elt F))
    (Wp : (⟨S256x2, .f32⟩ : BufTy).Contents (Elt F)) (bp : (⟨S2, .f32⟩ : BufTy).Contents (Elt F)) :
    (⟨S800000x2, .f32⟩ : BufTy).Contents (Elt F) :=
  S (predIn
      (U (updIn (U (updIn nf (L (msgIn nf ef src) Wm1 bm1) dst) Wa1 ba1)
          (L (msgIn (U (updIn nf (L (msgIn nf ef src) Wm1 bm1) dst) Wa1 ba1) ef src) Wm2 bm2) dst) Wa2 ba2)
      src dst) Wp bp

/-- The host's message layer: a `dot_general` and the bias vector spread down the rows. -/
def hostL (x : (⟨S800000x192, .f32⟩ : BufTy).Contents (Elt F)) (w : (⟨S192x128, .f32⟩ : BufTy).Contents (Elt F))
    (b : (⟨S128, .f32⟩ : BufTy).Contents (Elt F)) : (⟨S800000x128, .f32⟩ : BufTy).Contents (Elt F) :=
  addf (Host.dotGeneral dot_S800000x192_S192x128_S800000x128_1_0_0_1_n_n none x w)
    (broadcastInDim S800000x128 ![0, 1] bcast_S1x128_S800000x128_0_1 (broadcastInDim S1x128 ![1] bcast_S128_S1x128_1 b))

/-- The host's update layer: the same with the maximum against zero. -/
def hostU (x : (⟨S50000x256, .f32⟩ : BufTy).Contents (Elt F)) (w : (⟨S256x128, .f32⟩ : BufTy).Contents (Elt F))
    (b : (⟨S128, .f32⟩ : BufTy).Contents (Elt F)) : (⟨S50000x128, .f32⟩ : BufTy).Contents (Elt F) :=
  maximumf
    (addf (Host.dotGeneral dot_S50000x256_S256x128_S50000x128_1_0_0_1_n_n none x w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The host's score layer. -/
def hostS (x : (⟨S800000x256, .f32⟩ : BufTy).Contents (Elt F)) (w : (⟨S256x2, .f32⟩ : BufTy).Contents (Elt F))
    (b : (⟨S2, .f32⟩ : BufTy).Contents (Elt F)) : (⟨S800000x2, .f32⟩ : BufTy).Contents (Elt F) :=
  addf (Host.dotGeneral dot_S800000x256_S256x2_S800000x2_1_0_0_1_n_n none x w)
    (broadcastInDim S800000x2 ![0, 1] bcast_S1x2_S800000x2_0_1 (broadcastInDim S1x2 ![1] bcast_S2_S1x2_1 b))

end Cert.Sage

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.LibAffine.lean ====
/-
  An affine layer `x · w + b` over the extended reals, read at an index, in the two forms a program states it in.

  * On a block of rows inside a kernel: the block and the weights narrowed to half precision (the identity on the
    extended reals), multiplied into a zero accumulator, and a `[1, B]` bias row spread down the block's rows and
    added; optionally the maximum with the scalar zero word spread over the block.
  * On the host: a `dot_general` contracting the left operand's columns against the right operand's rows, a `[B]`
    bias vector laid along a `[1, B]` row and spread down the rows, added; optionally the maximum with the zero
    word spread from a scalar.
  Both read, at `(p, q)`, `∑ k, x (p, k) · w (k, q)` plus the bias at `q` (`rowsAt`), and the maximum of that with
  what the zero word denotes (`rowsReluAt`): no law of the extended reals is used beyond `0 + s = s` inside the
  product into the zero accumulator. `rows` / `rowsRelu` are the whole arrays, and a block of consecutive rows of
  the left operand gives the same rows of the result (`rowsAt_congr`). Any sizes.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«103565_j56057913147666_1_alg».proof.Proof.LibDotFormats
import proofs.«103565_j56057913147666_1_alg».proof.Proof.LibPlainDot
import proofs.«103565_j56057913147666_1_alg».proof.Proof.LibBroadcastInDim

noncomputable section

namespace Cert.LibAffine

open Idealize.ShloMosaic Idealize.ShloMosaic.ValueIdx
open scoped BigOperators

variable {A K B : ℕ}

/-- Entry `(p, q)` of `x · w + b`, the bias a `[1, B]` row. -/
def rowsAt (x : (⟨2, ![A, K]⟩ : Shape).Idx → EReal) (w : (⟨2, ![K, B]⟩ : Shape).Idx → EReal)
    (b : (⟨2, ![1, B]⟩ : Shape).Idx → EReal) (p : Fin A) (q : Fin B) : EReal :=
  (∑ k : Fin K, x (ix2 p k) * w (ix2 k q)) + b (ix2 (0 : Fin 1) q)

/-- The array `x · w + b`. -/
def rows (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => rowsAt x w b (j 0) (j 1)

/-- Entry `(p, q)` of `max (x · w + b) z`, `z` what the zero word denotes. -/
def rowsReluAt (x : (⟨2, ![A, K]⟩ : Shape).Idx → EReal) (w : (⟨2, ![K, B]⟩ : Shape).Idx → EReal)
    (b : (⟨2, ![1, B]⟩ : Shape).Idx → EReal) (p : Fin A) (q : Fin B) : EReal :=
  max (rowsAt x w b p q) (Ideal.ofBits .f32 0x00000000#32)

/-- The array `max (x · w + b) z`. -/
def rowsRelu (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => rowsReluAt x w b (j 0) (j 1)

theorem rows_ix2 (x : (⟨2, ![A, K]⟩ : Shape).Idx → EReal) (w : (⟨2, ![K, B]⟩ : Shape).Idx → EReal)
    (b : (⟨2, ![1, B]⟩ : Shape).Idx → EReal) (p : Fin A) (q : Fin B) : rows x w b (ix2 p q) = rowsAt x w b p q := rfl

theorem rowsRelu_ix2 (x : (⟨2, ![A, K]⟩ : Shape).Idx → EReal) (w : (⟨2, ![K, B]⟩ : Shape).Idx → EReal)
    (b : (⟨2, ![1, B]⟩ : Shape).Idx → EReal) (p : Fin A) (q : Fin B) :
    rowsRelu x w b (ix2 p q) = rowsReluAt x w b p q := rfl

/-- Row `p` of the result depends on row `p` of the left operand only: a block `x'` whose row `p'` is row `p` of `x`
    gives, at `(p', q)`, the entry `(p, q)`. -/
theorem rowsAt_congr {A' : ℕ} (x : (⟨2, ![A, K]⟩ : Shape).Idx → EReal) (x' : (⟨2, ![A', K]⟩ : Shape).Idx → EReal)
    (w : (⟨2, ![K, B]⟩ : Shape).Idx → EReal) (b : (⟨2, ![1, B]⟩ : Shape).Idx → EReal) (p : Fin A) (p' : Fin A') (q : Fin B)
    (h : ∀ k : Fin K, x' (ix2 p' k) = x (ix2 p k)) : rowsAt x' w b p' q = rowsAt x w b p q := by
  unfold rowsAt
  rw [Finset.sum_congr rfl fun k _ => by rw [h k]]

theorem rowsReluAt_congr {A' : ℕ} (x : (⟨2, ![A, K]⟩ : Shape).Idx → EReal) (x' : (⟨2, ![A', K]⟩ : Shape).Idx → EReal)
    (w : (⟨2, ![K, B]⟩ : Shape).Idx → EReal) (b : (⟨2, ![1, B]⟩ : Shape).Idx → EReal) (p : Fin A) (p' : Fin A') (q : Fin B)
    (h : ∀ k : Fin K, x' (ix2 p' k) = x (ix2 p k)) : rowsReluAt x' w b p' q = rowsReluAt x w b p q := by
  unfold rowsReluAt
  rw [rowsAt_congr x x' w b p p' q h]

/-! ## Inside a kernel: a block of rows -/

/-- The block form at `(p, q)`. -/
theorem block_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (hx : (⟨2, ![A, K]⟩ : Shape).ShapeCasts ⟨2, ![A, K]⟩) (hr : (⟨2, ![1, B]⟩ : Shape).ShapeCasts ⟨2, ![1, B]⟩)
    (hb : (⟨2, ![1, B]⟩ : Shape).Broadcasts ⟨2, ![A, B]⟩) (h1 : FTy.bf16.bits < FTy.f32.bits)
    (x : FVec Ideal ⟨2, ![A, K]⟩ .f32) (w : FVec Ideal ⟨2, ![K, B]⟩ .f32) (b : FVec Ideal ⟨2, ![1, B]⟩ .f32)
    (p : Fin A) (q : Fin B) :
    addf (matmul d none (truncf .bf16 (shapeCast ⟨2, ![A, K]⟩ x hx) h1) (truncf .bf16 w h1)
        (constant ⟨2, ![A, B]⟩ .f32 0x00000000#32))
      (broadcastTo ⟨2, ![A, B]⟩ (shapeCast ⟨2, ![1, B]⟩ b hr) hb) (ix2 p q) = rowsAt x w b p q := by
  rw [addf_apply, shapeCast_self, shapeCast_self, broadcastTo_1b_ab_apply]
  refine congrArg (· + b (ix2 (0 : Fin 1) q)) ?_
  exact Cert.LibDotFormats.matmul_cols_zero_apply d hlc hrc hln hrn hlb hrb none _ _ p q

/-- The block form with the maximum against the zero word, at `(p, q)`. -/
theorem block_relu_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (hx : (⟨2, ![A, K]⟩ : Shape).ShapeCasts ⟨2, ![A, K]⟩) (hr : (⟨2, ![1, B]⟩ : Shape).ShapeCasts ⟨2, ![1, B]⟩)
    (hb : (⟨2, ![1, B]⟩ : Shape).Broadcasts ⟨2, ![A, B]⟩) (h1 : FTy.bf16.bits < FTy.f32.bits)
    (x : FVec Ideal ⟨2, ![A, K]⟩ .f32) (w : FVec Ideal ⟨2, ![K, B]⟩ .f32) (b : FVec Ideal ⟨2, ![1, B]⟩ .f32)
    (p : Fin A) (q : Fin B) :
    maximumf (addf (matmul d none (truncf .bf16 (shapeCast ⟨2, ![A, K]⟩ x hx) h1) (truncf .bf16 w h1)
          (constant ⟨2, ![A, B]⟩ .f32 0x00000000#32))
        (broadcastTo ⟨2, ![A, B]⟩ (shapeCast ⟨2, ![1, B]⟩ b hr) hb))
      (broadcast ⟨2, ![A, B]⟩ (Scalar.ofBits (F := Ideal) .f32 0x00000000#32)) (ix2 p q) = rowsReluAt x w b p q := by
  rw [maximumf_apply, block_apply d hlc hrc hln hrn hlb hrb hx hr hb h1 x w b p q]
  rfl

/-! ## On the host -/

/-- The host form at `(p, q)`, the bias a `[B]` vector. -/
theorem host_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (x : FVec Ideal ⟨2, ![A, K]⟩ .f32) (w : FVec Ideal ⟨2, ![K, B]⟩ .f32) (b : FVec Ideal ⟨1, ![B]⟩ .f32)
    (p : Fin A) (q : Fin B) :
    addf (Host.dotGeneral d none x w)
      (broadcastInDim ⟨2, ![A, B]⟩ (![0, 1] : Fin 2 → Fin 2) h2 (broadcastInDim ⟨2, ![1, B]⟩ (![1] : Fin 1 → Fin 2) h1 b)) (ix2 p q)
      = rowsAt x w (shapeCast ⟨2, ![1, B]⟩ b hc) p q := by
  rw [addf_apply, Cert.LibBroadcastInDim.row_mat_apply, Cert.LibBroadcastInDim.vec_row_apply]
  unfold rowsAt
  rw [shapeCast_a_1a_apply]
  refine congrArg (· + b (ix1 q)) ?_
  exact Cert.LibPlainDot.dotGeneral_apply d hlc hrc hln hrn hlb hrb none .single x w p q

/-- The host's affine layer is `rows` with the bias vector cast to a row. -/
theorem host_eq_rows (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (x : FVec Ideal ⟨2, ![A, K]⟩ .f32) (w : FVec Ideal ⟨2, ![K, B]⟩ .f32) (b : FVec Ideal ⟨1, ![B]⟩ .f32) :
    addf (Host.dotGeneral d none x w)
      (broadcastInDim ⟨2, ![A, B]⟩ (![0, 1] : Fin 2 → Fin 2) h2 (broadcastInDim ⟨2, ![1, B]⟩ (![1] : Fin 1 → Fin 2) h1 b))
      = rows x w (shapeCast ⟨2, ![1, B]⟩ b hc) := by
  funext j
  obtain ⟨p, q, rfl⟩ : ∃ (p : Fin A) (q : Fin B), j = ix2 p q := ⟨j 0, j 1, eq_ix2 j⟩
  rw [host_apply d hlc hrc hln hrn hlb hrb h1 h2 hc x w b p q]
  rfl

/-- The host's affine layer under the maximum with the zero word spread from a scalar is `rowsRelu`. -/
theorem host_relu_eq_rowsRelu (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2))
    (hc : (⟨1, ![B]⟩ : Shape).ShapeCasts ⟨2, ![1, B]⟩)
    (x : FVec Ideal ⟨2, ![A, K]⟩ .f32) (w : FVec Ideal ⟨2, ![K, B]⟩ .f32) (b : FVec Ideal ⟨1, ![B]⟩ .f32) :
    maximumf (addf (Host.dotGeneral d none x w)
        (broadcastInDim ⟨2, ![A, B]⟩ (![0, 1] : Fin 2 → Fin 2) h2 (broadcastInDim ⟨2, ![1, B]⟩ (![1] : Fin 1 → Fin 2) h1 b)))
      (broadcastInDim ⟨2, ![A, B]⟩ (![] : Fin 0 → Fin 2) h0 (constant (F := Ideal) ⟨0, ![]⟩ .f32 0x00000000#32))
      = rowsRelu x w (shapeCast ⟨2, ![1, B]⟩ b hc) := by
  funext j
  obtain ⟨p, q, rfl⟩ : ∃ (p : Fin A) (q : Fin B), j = ix2 p q := ⟨j 0, j 1, eq_ix2 j⟩
  rw [maximumf_apply, host_eq_rows d hlc hrc hln hrn hlb hrb h1 h2 hc x w b,
    Cert.LibBroadcastInDim.scalar_apply _ h0 (ix2 p q) ix0]
  rfl

end Cert.LibAffine

end
-- ==== Proof.Stage.lean ====
/-
  The host operations between the kernel program's pallas calls, read as the network's stages.

  Each stretch of host operations takes the buffers' contents `W` at its start and leaves, in the three buffers the
  next call reads, a stage of the network applied to contents `W` held: before a message layer the message inputs
  (`msgIn`), before an update layer the update inputs (`updIn`), before the score layer the score inputs
  (`predIn`); the weight matrix untouched; and the bias vector cast to a one-row matrix.
-/
import proofs.«103565_j56057913147666_1_alg».proof.Proof.Gen.KernelIdeal.Launch
import proofs.«103565_j56057913147666_1_alg».proof.Proof.Model
import Idealize.ShloMosaic.Lib.StableHlo.Run
import Idealize.ShloMosaic.PureOps.Ideal

set_option maxRecDepth 16384

noncomputable section

namespace Cert.KernelIdeal.Stretches

open Cert.KernelIdeal Cert.KernelIdeal.Gen
open Idealize.ShloMosaic Idealize.ShloMosaic.StableHlo Idealize.ShloMosaic.TcCoe Cert.Sage

variable (W : Valuation τ sig (Elt Ideal))

/-! ## Before the first message layer -/

theorem s0_x : after (hostOps0 (F := Ideal)) W (Proc.devRef .tc main_v7)
    = msgIn (F := Ideal) (W (Proc.devRef .tc main_arg0)) (W (Proc.devRef .tc main_arg1)) (W (Proc.devRef .tc main_arg2)) := by
  dsimp only [hostOps0]; after_results; rfl

theorem s0_w : after (hostOps0 (F := Ideal)) W (Proc.devRef .tc main_arg4) = W (Proc.devRef .tc main_arg4) := by
  dsimp only [hostOps0]; after_results

theorem s0_b : after (hostOps0 (F := Ideal)) W (Proc.devRef .tc main_v8)
    = shapeCast S1x128 (W (Proc.devRef .tc main_arg5)) Facts₀.shapeCasts_S128_S1x128 := by
  dsimp only [hostOps0]; after_results; rfl

/-! ## Before the first update layer -/

set_option maxHeartbeats 4000000 in
theorem s1_x : after (hostOps1 (F := Ideal)) W (Proc.devRef .tc main_v21)
    = updIn (F := Ideal) (W (Proc.devRef .tc main_arg0)) (W (Proc.devRef .tc main_v9)) (W (Proc.devRef .tc main_arg3)) := by
  dsimp only [hostOps1]; after_results; rfl

theorem s1_w : after (hostOps1 (F := Ideal)) W (Proc.devRef .tc main_arg6) = W (Proc.devRef .tc main_arg6) := by
  dsimp only [hostOps1]; after_results

theorem s1_b : after (hostOps1 (F := Ideal)) W (Proc.devRef .tc main_v22)
    = shapeCast S1x128 (W (Proc.devRef .tc main_arg7)) Facts₀.shapeCasts_S128_S1x128 := by
  dsimp only [hostOps1]; after_results; rfl

/-! ## Before the second message layer -/

theorem s2_x : after (hostOps2 (F := Ideal)) W (Proc.devRef .tc main_v31)
    = msgIn (F := Ideal) (W (Proc.devRef .tc main_v23)) (W (Proc.devRef .tc main_arg1)) (W (Proc.devRef .tc main_arg2)) := by
  dsimp only [hostOps2]; after_results; rfl

theorem s2_w : after (hostOps2 (F := Ideal)) W (Proc.devRef .tc main_arg8) = W (Proc.devRef .tc main_arg8) := by
  dsimp only [hostOps2]; after_results

theorem s2_b : after (hostOps2 (F := Ideal)) W (Proc.devRef .tc main_v32)
    = shapeCast S1x128 (W (Proc.devRef .tc main_arg9)) Facts₀.shapeCasts_S128_S1x128 := by
  dsimp only [hostOps2]; after_results; rfl

/-! ## Before the second update layer -/

set_option maxHeartbeats 4000000 in
theorem s3_x : after (hostOps3 (F := Ideal)) W (Proc.devRef .tc main_v45)
    = updIn (F := Ideal) (W (Proc.devRef .tc main_v23)) (W (Proc.devRef .tc main_v33)) (W (Proc.devRef .tc main_arg3)) := by
  dsimp only [hostOps3]; after_results; rfl

theorem s3_w : after (hostOps3 (F := Ideal)) W (Proc.devRef .tc main_arg10) = W (Proc.devRef .tc main_arg10) := by
  dsimp only [hostOps3]; after_results

theorem s3_b : after (hostOps3 (F := Ideal)) W (Proc.devRef .tc main_v46)
    = shapeCast S1x128 (W (Proc.devRef .tc main_arg11)) Facts₀.shapeCasts_S128_S1x128 := by
  dsimp only [hostOps3]; after_results; rfl

/-! ## Before the score layer -/

set_option maxHeartbeats 4000000 in
theorem s4_x : after (hostOps4 (F := Ideal)) W (Proc.devRef .tc main_v62)
    = predIn (F := Ideal) (W (Proc.devRef .tc main_v47)) (W (Proc.devRef .tc main_arg2)) (W (Proc.devRef .tc main_arg3)) := by
  dsimp only [hostOps4]; after_results; rfl

theorem s4_w : after (hostOps4 (F := Ideal)) W (Proc.devRef .tc main_arg12) = W (Proc.devRef .tc main_arg12) := by
  dsimp only [hostOps4]; after_results

theorem s4_b : after (hostOps4 (F := Ideal)) W (Proc.devRef .tc main_v63)
    = shapeCast S1x2 (W (Proc.devRef .tc main_arg13)) Facts₀.shapeCasts_S2_S1x2 := by
  dsimp only [hostOps4]; after_results; rfl

end Cert.KernelIdeal.Stretches

end
-- ==== Proof.Carry.lean ====
/-
  What the kernel's program leaves alone. No host operation writes an argument array and no pallas call has one as
  its result, so at every boundary between a call and the next stretch of host operations an argument buffer the calls
  so far have not staged (only weight matrices are staged directly) still holds its launch contents; and the first update layer's result (read again two calls later) is not written in between.
-/
import proofs.«103565_j56057913147666_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The argument buffers the first message layer does not stage (its weights `main_arg4` it does). -/
abbrev kept0 : List (Ref sig .tc) :=
  [main_arg0, main_arg1, main_arg2, main_arg3, main_arg5, main_arg6, main_arg7, main_arg8, main_arg9,
    main_arg10, main_arg11, main_arg12, main_arg13]
/-- … nor the first update layer (weights `main_arg6`). -/
abbrev kept1 : List (Ref sig .tc) :=
  [main_arg0, main_arg1, main_arg2, main_arg3, main_arg5, main_arg7, main_arg8, main_arg9,
    main_arg10, main_arg11, main_arg12, main_arg13]
/-- … nor the second message layer (weights `main_arg8`). -/
abbrev kept2 : List (Ref sig .tc) :=
  [main_arg0, main_arg1, main_arg2, main_arg3, main_arg5, main_arg7, main_arg9,
    main_arg10, main_arg11, main_arg12, main_arg13]
/-- … nor the second update layer (weights `main_arg10`). -/
abbrev kept3 : List (Ref sig .tc) :=
  [main_arg0, main_arg1, main_arg2, main_arg3, main_arg5, main_arg7, main_arg9,
    main_arg11, main_arg12, main_arg13]

/-- A buffer no operation of the stretch `ops` writes keeps its contents: the operations' written buffers are
    listed and each is another reference. -/
local macro "untouched " ops:ident : tactic =>
  `(tactic| (refine StableHlo.after_of_forall_not_mem _ _ (List.forall_iff_forall_mem.mp ?_)
             simp only [$ops:ident, List.flatten_cons, List.flatten_nil, List.append_nil, List.cons_append, List.nil_append,
               List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- Through the first stretch and the first message layer. -/
theorem through0 (c : Dev nD) : ∀ b ∈ kept0, W2 m ρ c (Proc.devRef .tc b) = W0 m ρ c (Proc.devRef .tc b) := by
  intro b hb
  simp only [kept0, List.mem_cons, List.not_mem_nil, or_false] at hb
  rcases hb with rfl | rfl | rfl | rfl | rfl | rfl | rfl | rfl | rfl | rfl | rfl | rfl | rfl
  all_goals exact (W2_of_ne m ρ c _ (by decide)).trans (by untouched hostOps0)

/-- Through the second stretch and the first update layer. -/
theorem through1 (c : Dev nD) : ∀ b ∈ kept1, W4 m ρ c (Proc.devRef .tc b) = W2 m ρ c (Proc.devRef .tc b) := by
  intro b hb
  simp only [kept1, List.mem_cons, List.not_mem_nil, or_false] at hb
  rcases hb with rfl | rfl | rfl | rfl | rfl | rfl | rfl | rfl | rfl | rfl | rfl | rfl
  all_goals exact (W4_of_ne m ρ c _ (by decide)).trans (by untouched hostOps1)

/-- Through the third stretch and the second message layer. -/
theorem through2 (c : Dev nD) : ∀ b ∈ kept2, W6 m ρ c (Proc.devRef .tc b) = W4 m ρ c (Proc.devRef .tc b) := by
  intro b hb
  simp only [kept2, List.mem_cons, List.not_mem_nil, or_false] at hb
  rcases hb with rfl | rfl | rfl | rfl | rfl | rfl | rfl | rfl | rfl | rfl | rfl
  all_goals exact (W6_of_ne m ρ c _ (by decide)).trans (by untouched hostOps2)

/-- Through the fourth stretch and the second update layer. -/
theorem through3 (c : Dev nD) : ∀ b ∈ kept3, W8 m ρ c (Proc.devRef .tc b) = W6 m ρ c (Proc.devRef .tc b) := by
  intro b hb
  simp only [kept3, List.mem_cons, List.not_mem_nil, or_false] at hb
  rcases hb with rfl | rfl | rfl | rfl | rfl | rfl | rfl | rfl | rfl | rfl
  all_goals exact (W8_of_ne m ρ c _ (by decide)).trans (by untouched hostOps3)

/-- An argument buffer the calls so far have not staged holds, after the first message layer, its launch contents. -/
theorem arg_at2 (c : Dev nD) (b : Ref sig .tc) (h0 : b ∈ kept0) : W2 m ρ c (Proc.devRef .tc b) = W0 m ρ c (Proc.devRef .tc b) :=
  through0 m ρ c b h0
/-- … after the first update layer. -/
theorem arg_at4 (c : Dev nD) (b : Ref sig .tc) (h0 : b ∈ kept0) (h1 : b ∈ kept1) :
    W4 m ρ c (Proc.devRef .tc b) = W0 m ρ c (Proc.devRef .tc b) :=
  (through1 m ρ c b h1).trans (arg_at2 m ρ c b h0)
/-- … after the second message layer. -/
theorem arg_at6 (c : Dev nD) (b : Ref sig .tc) (h0 : b ∈ kept0) (h1 : b ∈ kept1) (h2 : b ∈ kept2) :
    W6 m ρ c (Proc.devRef .tc b) = W0 m ρ c (Proc.devRef .tc b) :=
  (through2 m ρ c b h2).trans (arg_at4 m ρ c b h0 h1)
/-- … after the second update layer. -/
theorem arg_at8 (c : Dev nD) (b : Ref sig .tc) (h0 : b ∈ kept0) (h1 : b ∈ kept1) (h2 : b ∈ kept2) (h3 : b ∈ kept3) :
    W8 m ρ c (Proc.devRef .tc b) = W0 m ρ c (Proc.devRef .tc b) :=
  (through3 m ρ c b h3).trans (arg_at6 m ρ c b h0 h1 h2)

/-- The first update layer's result is still in its buffer after the second message layer. -/
theorem h1_at6 (c : Dev nD) : W6 m ρ c (Proc.devRef .tc main_v23) = W4 m ρ c (Proc.devRef .tc main_v23) :=
  (W6_of_ne m ρ c _ (by decide)).trans (by untouched hostOps2)

end Cert.KernelIdeal.Carry

end
-- ==== Proof.Layer0.lean ====
/-
  The first message layer of the kernel's program (pallas call 0), read as a value: the array it writes is the layer
  `x · w + b` of the arrays it reads.

  The call walks 100 grid points. At point `t` it stages the 8000 rows of its `[800000, 192]` left operand that start at row
  `8000 · t`, the whole `[192, 128]` weight matrix and the whole `[1, 128]` bias row, and writes back the 8000 rows of the
  `[800000, 128]` result that start at row `8000 · t`. A row of `x · w + b` depends on the same row of `x` only, so what
  point `t` writes back is block `t` of the one array `rows x w b`; the 100 blocks tile the result array (row `i` lies
  in block `i / 8000`), so after the call the array holds `rows x w b` whatever it held before.
-/
import proofs.«103565_j56057913147666_1_alg».proof.Proof.Gen.KernelIdeal.Frame
import proofs.«103565_j56057913147666_1_alg».proof.Proof.LibAffine
import Idealize.ShloMosaic.Lib.Pipeline.Value
import Idealize.ShloMosaic.Lib.ValueIdx

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the call is entered
variable (V : (c : Dev nD) → (b : Ref sig .tc) → Buf (Elt Ideal) ((c : Thread nD τ).loc b))

/-- The left operand, the weights and the bias row as the call finds them. -/
abbrev lhs (c : Dev nD) : Vec Ideal S800000x192 .f32 := V c (Pipeline.arrRef spec0 0)
abbrev wts (c : Dev nD) : Vec Ideal S192x128 .f32 := V c (Pipeline.arrRef spec0 1)
abbrev bias (c : Dev nD) : Vec Ideal S1x128 .f32 := V c (Pipeline.arrRef spec0 2)

theorem origin : (![0, 0] : Fin 2 → Nat) = fun _ => 0 := funext fun a => by fin_cases a <;> rfl

/-- The body's one store, at `(p, q)` of its block. -/
theorem stored_apply (x0 : Vec Ideal S8000x192 .f32) (x1 : Vec Ideal S192x128 .f32) (x2 : Vec Ideal S1x128 .f32)
    (p : Fin 8000) (q : Fin 128) : k0_pay1 x0 x1 x2 (ix2 p q) = Cert.LibAffine.rowsAt x0 x1 x2 p q := by
  unfold k0_pay1
  exact Cert.LibAffine.block_apply dot_S8000x192_S192x128_S8000x128_1_0_0_1_n_n rfl rfl rfl rfl rfl rfl _ _ _ _ x0 x1 x2 p q

/-- The index maps over the grid: the left operand and the result move one block of rows per point, the weights and
    the bias stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block of the left operand is row `8000·t + p` of the array. -/
theorem lhs_block (c : Dev nD) (t : Fin cfg0.N) (p : Fin 8000) (r : Fin 800000) (hr : r.val = t.val * 8000 + p.val) (k : Fin 192) :
    iblk0 V c 0 t (ix2 p k) = lhs V c (ix2 r k) := by
  obtain ⟨e0, e1, -, -, -, -, -, -⟩ := index_maps t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 8000 + 1 * p.val = r.val; omega
  | ⟨1, _⟩ => show win0_0.index t (1 : Fin 2) * 192 + 1 * k.val = k.val; omega

/-- The weights' block is the whole matrix at every point. -/
theorem wts_block (c : Dev nD) (t : Fin cfg0.N) : iblk0 V c 1 t = wts V c := by
  obtain ⟨-, -, e2, e3, -, -, -, -⟩ := index_maps t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 192 + 1 * (y 0).val = (y 0).val; omega
  | ⟨1, _⟩ => show win0_1.index t (1 : Fin 2) * 128 + 1 * (y 1).val = (y 1).val; omega

/-- The bias row's block is the whole row at every point. -/
theorem bias_block (c : Dev nD) (t : Fin cfg0.N) : iblk0 V c 2 t = bias V c := by
  obtain ⟨-, -, -, -, e4, e5, -, -⟩ := index_maps t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of the affine layer of the arrays as the call finds them. -/
theorem flushed_eq (c : Dev nD) (t : Fin cfg0.N) :
    (dat0 V c).flushed 3 t
      = ((cfg0.win 3).blk t).view.read (Elt Ideal) (Cert.LibAffine.rows (lhs V c) (wts V c) (bias V c)) := by
  show (cfg0.win 3).cut (grid0.coords t) ((dat0 V c).after 3 t) = _
  rw [after0_3]
  unfold out0_3
  rw [View.canon_unit_zero origin]
  simp only [View.ld_unit_zero (S := S8000x192) origin, View.ld_unit_zero (S := S192x128) origin, View.ld_unit_zero (S := S1x128) origin]
  rw [wts_block V c t, bias_block V c t]
  obtain ⟨-, -, -, -, -, -, e6, e7⟩ := index_maps t
  funext j
  obtain ⟨p, q, rfl⟩ : ∃ (p : Fin 8000) (q : Fin 128), j = ix2 p q := ⟨j 0, j 1, eq_ix2 j⟩
  have hr : t.val * 8000 + p.val < 800000 := by
    have ht : t.val < 100 := Nat.lt_of_lt_of_eq t.isLt N_0
    have hp := p.isLt
    omega
  have hemb : ((cfg0.win 3).blk t).view.emb (ix2 p q) = ix2 (⟨t.val * 8000 + p.val, hr⟩ : Fin 800000) q := by
    funext a; apply Fin.ext
    match a with
    | ⟨0, _⟩ => show win0_3.index t (0 : Fin 2) * 8000 + 1 * p.val = t.val * 8000 + p.val; omega
    | ⟨1, _⟩ => show win0_3.index t (1 : Fin 2) * 128 + 1 * q.val = q.val; omega
  show k0_pay1 (iblk0 V c 0 t) (wts V c) (bias V c) (ix2 p q)
    = Cert.LibAffine.rows (lhs V c) (wts V c) (bias V c) (((cfg0.win 3).blk t).view.emb (ix2 p q))
  rw [hemb, Cert.LibAffine.rows_ix2]
  refine (stored_apply (iblk0 V c 0 t) (wts V c) (bias V c) p q).trans ?_
  exact Cert.LibAffine.rowsAt_congr (lhs V c) (iblk0 V c 0 t) (wts V c) (bias V c) ⟨t.val * 8000 + p.val, hr⟩ p q
    (fun k => lhs_block V c t p ⟨t.val * 8000 + p.val, hr⟩ rfl k)

/-- An index of the result array is in point `t`'s block iff each coordinate is in the block's range on its axis. -/
theorem mem_block (t : Fin cfg0.N) (i : S800000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v9).slice (win0_3.rect t)).set ↔ _
  rw [View.set_slice_whole, Rect.mem_set_unit]
  exact Iff.rfl

/-- The blocks tile the result array: row `i` lies in the block of point `i / 8000`. -/
theorem covered (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have ht : (i 0).val / 8000 < cfg0.N := by rw [show cfg0.N = 100 from N_0]; omega
  obtain ⟨-, -, -, -, -, -, e6, e7⟩ := index_maps ⟨(i 0).val / 8000, ht⟩
  refine ⟨⟨(i 0).val / 8000, ht⟩, flush0_3 _, ?_⟩
  rw [mem_block]
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, ht⟩ (1 : Fin 2) * 128 ≤ (i 1).val
      ∧ (i 1).val < win0_3.index ⟨(i 0).val / 8000, ht⟩ (1 : Fin 2) * 128 + 128
    rw [e7]; omega

/-- After the call the result array holds the affine layer of the arrays the call found. -/
theorem result (c : Dev nD) :
    (dat0 V c).arrAt 3 cfg0.N = Cert.LibAffine.rows (lhs V c) (wts V c) (bias V c) :=
  (dat0 V c).arrAt_eq_of_cover 3 (Cert.LibAffine.rows (lhs V c) (wts V c) (bias V c))
    (fun t _ => flushed_eq V c t) covered

end Cert.KernelIdeal.Layer0

end
-- ==== Proof.Layer1.lean ====
/-
  The first update layer of the kernel's program (pallas call 1), read as a value: the array it writes is the layer
  `max (x · w + b) 0` of the arrays it reads.

  The call walks 10 grid points. At point `t` it stages the 5000 rows of its `[50000, 256]` left operand that start at row
  `5000 · t`, the whole `[256, 128]` weight matrix and the whole `[1, 128]` bias row, and writes back the 5000 rows of the
  `[50000, 128]` result that start at row `5000 · t`. A row of `max (x · w + b) 0` depends on the same row of `x` only, so what
  point `t` writes back is block `t` of the one array `rowsRelu x w b`; the 10 blocks tile the result array (row `i` lies
  in block `i / 5000`), so after the call the array holds `rowsRelu x w b` whatever it held before.
-/
import proofs.«103565_j56057913147666_1_alg».proof.Proof.Gen.KernelIdeal.Frame
import proofs.«103565_j56057913147666_1_alg».proof.Proof.LibAffine
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the call is entered
variable (V : (c : Dev nD) → (b : Ref sig .tc) → Buf (Elt Ideal) ((c : Thread nD τ).loc b))

/-- The left operand, the weights and the bias row as the call finds them. -/
abbrev lhs (c : Dev nD) : Vec Ideal S50000x256 .f32 := V c (Pipeline.arrRef spec1 0)
abbrev wts (c : Dev nD) : Vec Ideal S256x128 .f32 := V c (Pipeline.arrRef spec1 1)
abbrev bias (c : Dev nD) : Vec Ideal S1x128 .f32 := V c (Pipeline.arrRef spec1 2)

theorem origin : (![0, 0] : Fin 2 → Nat) = fun _ => 0 := funext fun a => by fin_cases a <;> rfl

/-- The body's one store, at `(p, q)` of its block. -/
theorem stored_apply (x0 : Vec Ideal S5000x256 .f32) (x1 : Vec Ideal S256x128 .f32) (x2 : Vec Ideal S1x128 .f32)
    (p : Fin 5000) (q : Fin 128) : k1_pay1 x0 x1 x2 (ix2 p q) = Cert.LibAffine.rowsReluAt x0 x1 x2 p q := by
  unfold k1_pay1
  exact Cert.LibAffine.block_relu_apply dot_S5000x256_S256x128_S5000x128_1_0_0_1_n_n rfl rfl rfl rfl rfl rfl _ _ _ _ x0 x1 x2 p q

/-- The index maps over the grid: the left operand and the result move one block of rows per point, the weights and
    the bias stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block of the left operand is row `5000·t + p` of the array. -/
theorem lhs_block (c : Dev nD) (t : Fin cfg1.N) (p : Fin 5000) (r : Fin 50000) (hr : r.val = t.val * 5000 + p.val) (k : Fin 256) :
    iblk1 V c 0 t (ix2 p k) = lhs V c (ix2 r k) := by
  obtain ⟨e0, e1, -, -, -, -, -, -⟩ := index_maps t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 256 + 1 * k.val = k.val; omega

/-- The weights' block is the whole matrix at every point. -/
theorem wts_block (c : Dev nD) (t : Fin cfg1.N) : iblk1 V c 1 t = wts V c := by
  obtain ⟨-, -, e2, e3, -, -, -, -⟩ := index_maps t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- The bias row's block is the whole row at every point. -/
theorem bias_block (c : Dev nD) (t : Fin cfg1.N) : iblk1 V c 2 t = bias V c := by
  obtain ⟨-, -, -, -, e4, e5, -, -⟩ := index_maps t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What point `t` writes back is block `t` of the affine layer of the arrays as the call finds them. -/
theorem flushed_eq (c : Dev nD) (t : Fin cfg1.N) :
    (dat1 V c).flushed 3 t
      = ((cfg1.win 3).blk t).view.read (Elt Ideal) (Cert.LibAffine.rowsRelu (lhs V c) (wts V c) (bias V c)) := by
  show (cfg1.win 3).cut (grid1.coords t) ((dat1 V c).after 3 t) = _
  rw [after1_3]
  unfold out1_3
  rw [View.canon_unit_zero origin]
  simp only [View.ld_unit_zero (S := S5000x256) origin, View.ld_unit_zero (S := S256x128) origin, View.ld_unit_zero (S := S1x128) origin]
  rw [wts_block V c t, bias_block V c t]
  obtain ⟨-, -, -, -, -, -, e6, e7⟩ := index_maps t
  funext j
  obtain ⟨p, q, rfl⟩ : ∃ (p : Fin 5000) (q : Fin 128), j = ix2 p q := ⟨j 0, j 1, eq_ix2 j⟩
  have hr : t.val * 5000 + p.val < 50000 := by
    have ht : t.val < 10 := Nat.lt_of_lt_of_eq t.isLt N_1
    have hp := p.isLt
    omega
  have hemb : ((cfg1.win 3).blk t).view.emb (ix2 p q) = ix2 (⟨t.val * 5000 + p.val, hr⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (iblk1 V c 0 t) (wts V c) (bias V c) (ix2 p q)
    = Cert.LibAffine.rowsRelu (lhs V c) (wts V c) (bias V c) (((cfg1.win 3).blk t).view.emb (ix2 p q))
  rw [hemb, Cert.LibAffine.rowsRelu_ix2]
  refine (stored_apply (iblk1 V c 0 t) (wts V c) (bias V c) p q).trans ?_
  exact Cert.LibAffine.rowsReluAt_congr (lhs V c) (iblk1 V c 0 t) (wts V c) (bias V c) ⟨t.val * 5000 + p.val, hr⟩ p q
    (fun k => lhs_block V c t p ⟨t.val * 5000 + p.val, hr⟩ rfl k)

/-- An index of the result array is in point `t`'s block iff each coordinate is in the block's range on its axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v23).slice (win1_3.rect t)).set ↔ _
  rw [View.set_slice_whole, Rect.mem_set_unit]
  exact Iff.rfl

/-- The blocks tile the result array: row `i` lies in the block of point `i / 5000`. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, -, e6, e7⟩ := index_maps ⟨(i 0).val / 5000, ht⟩
  refine ⟨⟨(i 0).val / 5000, ht⟩, flush1_3 _, ?_⟩
  rw [mem_block]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e7]; omega

/-- After the call the result array holds the affine layer of the arrays the call found. -/
theorem result (c : Dev nD) :
    (dat1 V c).arrAt 3 cfg1.N = Cert.LibAffine.rowsRelu (lhs V c) (wts V c) (bias V c) :=
  (dat1 V c).arrAt_eq_of_cover 3 (Cert.LibAffine.rowsRelu (lhs V c) (wts V c) (bias V c))
    (fun t _ => flushed_eq V c t) covered

end Cert.KernelIdeal.Layer1

end
-- ==== Proof.Layer2.lean ====
/-
  The second message layer of the kernel's program (pallas call 2), read as a value: the array it writes is the layer
  `x · w + b` of the arrays it reads.

  The call walks 100 grid points. At point `t` it stages the 8000 rows of its `[800000, 192]` left operand that start at row
  `8000 · t`, the whole `[192, 128]` weight matrix and the whole `[1, 128]` bias row, and writes back the 8000 rows of the
  `[800000, 128]` result that start at row `8000 · t`. A row of `x · w + b` depends on the same row of `x` only, so what
  point `t` writes back is block `t` of the one array `rows x w b`; the 100 blocks tile the result array (row `i` lies
  in block `i / 8000`), so after the call the array holds `rows x w b` whatever it held before.
-/
import proofs.«103565_j56057913147666_1_alg».proof.Proof.Gen.KernelIdeal.Frame
import proofs.«103565_j56057913147666_1_alg».proof.Proof.LibAffine
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the call is entered
variable (V : (c : Dev nD) → (b : Ref sig .tc) → Buf (Elt Ideal) ((c : Thread nD τ).loc b))

/-- The left operand, the weights and the bias row as the call finds them. -/
abbrev lhs (c : Dev nD) : Vec Ideal S800000x192 .f32 := V c (Pipeline.arrRef spec2 0)
abbrev wts (c : Dev nD) : Vec Ideal S192x128 .f32 := V c (Pipeline.arrRef spec2 1)
abbrev bias (c : Dev nD) : Vec Ideal S1x128 .f32 := V c (Pipeline.arrRef spec2 2)

theorem origin : (![0, 0] : Fin 2 → Nat) = fun _ => 0 := funext fun a => by fin_cases a <;> rfl

/-- The body's one store, at `(p, q)` of its block. -/
theorem stored_apply (x0 : Vec Ideal S8000x192 .f32) (x1 : Vec Ideal S192x128 .f32) (x2 : Vec Ideal S1x128 .f32)
    (p : Fin 8000) (q : Fin 128) : k2_pay1 x0 x1 x2 (ix2 p q) = Cert.LibAffine.rowsAt x0 x1 x2 p q := by
  unfold k2_pay1
  exact Cert.LibAffine.block_apply dot_S8000x192_S192x128_S8000x128_1_0_0_1_n_n rfl rfl rfl rfl rfl rfl _ _ _ _ x0 x1 x2 p q

/-- The index maps over the grid: the left operand and the result move one block of rows per point, the weights and
    the bias stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of point `t`'s block of the left operand is row `8000·t + p` of the array. -/
theorem lhs_block (c : Dev nD) (t : Fin cfg2.N) (p : Fin 8000) (r : Fin 800000) (hr : r.val = t.val * 8000 + p.val) (k : Fin 192) :
    iblk2 V c 0 t (ix2 p k) = lhs V c (ix2 r k) := by
  obtain ⟨e0, e1, -, -, -, -, -, -⟩ := index_maps t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 8000 + 1 * p.val = r.val; omega
  | ⟨1, _⟩ => show win2_0.index t (1 : Fin 2) * 192 + 1 * k.val = k.val; omega

/-- The weights' block is the whole matrix at every point. -/
theorem wts_block (c : Dev nD) (t : Fin cfg2.N) : iblk2 V c 1 t = wts V c := by
  obtain ⟨-, -, e2, e3, -, -, -, -⟩ := index_maps t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 192 + 1 * (y 0).val = (y 0).val; omega
  | ⟨1, _⟩ => show win2_1.index t (1 : Fin 2) * 128 + 1 * (y 1).val = (y 1).val; omega

/-- The bias row's block is the whole row at every point. -/
theorem bias_block (c : Dev nD) (t : Fin cfg2.N) : iblk2 V c 2 t = bias V c := by
  obtain ⟨-, -, -, -, e4, e5, -, -⟩ := index_maps t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What point `t` writes back is block `t` of the affine layer of the arrays as the call finds them. -/
theorem flushed_eq (c : Dev nD) (t : Fin cfg2.N) :
    (dat2 V c).flushed 3 t
      = ((cfg2.win 3).blk t).view.read (Elt Ideal) (Cert.LibAffine.rows (lhs V c) (wts V c) (bias V c)) := by
  show (cfg2.win 3).cut (grid2.coords t) ((dat2 V c).after 3 t) = _
  rw [after2_3]
  unfold out2_3
  rw [View.canon_unit_zero origin]
  simp only [View.ld_unit_zero (S := S8000x192) origin, View.ld_unit_zero (S := S192x128) origin, View.ld_unit_zero (S := S1x128) origin]
  rw [wts_block V c t, bias_block V c t]
  obtain ⟨-, -, -, -, -, -, e6, e7⟩ := index_maps t
  funext j
  obtain ⟨p, q, rfl⟩ : ∃ (p : Fin 8000) (q : Fin 128), j = ix2 p q := ⟨j 0, j 1, eq_ix2 j⟩
  have hr : t.val * 8000 + p.val < 800000 := by
    have ht : t.val < 100 := Nat.lt_of_lt_of_eq t.isLt N_2
    have hp := p.isLt
    omega
  have hemb : ((cfg2.win 3).blk t).view.emb (ix2 p q) = ix2 (⟨t.val * 8000 + p.val, hr⟩ : Fin 800000) q := by
    funext a; apply Fin.ext
    match a with
    | ⟨0, _⟩ => show win2_3.index t (0 : Fin 2) * 8000 + 1 * p.val = t.val * 8000 + p.val; omega
    | ⟨1, _⟩ => show win2_3.index t (1 : Fin 2) * 128 + 1 * q.val = q.val; omega
  show k2_pay1 (iblk2 V c 0 t) (wts V c) (bias V c) (ix2 p q)
    = Cert.LibAffine.rows (lhs V c) (wts V c) (bias V c) (((cfg2.win 3).blk t).view.emb (ix2 p q))
  rw [hemb, Cert.LibAffine.rows_ix2]
  refine (stored_apply (iblk2 V c 0 t) (wts V c) (bias V c) p q).trans ?_
  exact Cert.LibAffine.rowsAt_congr (lhs V c) (iblk2 V c 0 t) (wts V c) (bias V c) ⟨t.val * 8000 + p.val, hr⟩ p q
    (fun k => lhs_block V c t p ⟨t.val * 8000 + p.val, hr⟩ rfl k)

/-- An index of the result array is in point `t`'s block iff each coordinate is in the block's range on its axis. -/
theorem mem_block (t : Fin cfg2.N) (i : S800000x128.Idx) :
    i ∈ ((cfg2.win 3).blk t).view.set ↔ ∀ a : Fin 2, win2_3.index t a * S8000x128.size a ≤ (i a).val
      ∧ (i a).val < win2_3.index t a * S8000x128.size a + S8000x128.size a := by
  show i ∈ ((View.whole main_v33).slice (win2_3.rect t)).set ↔ _
  rw [View.set_slice_whole, Rect.mem_set_unit]
  exact Iff.rfl

/-- The blocks tile the result array: row `i` lies in the block of point `i / 8000`. -/
theorem covered (i : S800000x128.Idx) :
    ∃ t : Fin cfg2.N, (cfg2.win 3).flush t = true ∧ i ∈ ((cfg2.win 3).blk t).view.set := by
  have hi0 : (i 0).val < 800000 := (i 0).isLt
  have hi1 : (i 1).val < 128 := (i 1).isLt
  have ht : (i 0).val / 8000 < cfg2.N := by rw [show cfg2.N = 100 from N_2]; omega
  obtain ⟨-, -, -, -, -, -, e6, e7⟩ := index_maps ⟨(i 0).val / 8000, ht⟩
  refine ⟨⟨(i 0).val / 8000, ht⟩, flush2_3 _, ?_⟩
  rw [mem_block]
  intro a
  match a with
  | ⟨0, _⟩ =>
    show win2_3.index ⟨(i 0).val / 8000, ht⟩ (0 : Fin 2) * 8000 ≤ (i 0).val
      ∧ (i 0).val < win2_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win2_3.index ⟨(i 0).val / 8000, ht⟩ (1 : Fin 2) * 128 ≤ (i 1).val
      ∧ (i 1).val < win2_3.index ⟨(i 0).val / 8000, ht⟩ (1 : Fin 2) * 128 + 128
    rw [e7]; omega

/-- After the call the result array holds the affine layer of the arrays the call found. -/
theorem result (c : Dev nD) :
    (dat2 V c).arrAt 3 cfg2.N = Cert.LibAffine.rows (lhs V c) (wts V c) (bias V c) :=
  (dat2 V c).arrAt_eq_of_cover 3 (Cert.LibAffine.rows (lhs V c) (wts V c) (bias V c))
    (fun t _ => flushed_eq V c t) covered

end Cert.KernelIdeal.Layer2

end
-- ==== Proof.Layer3.lean ====
/-
  The second update layer of the kernel's program (pallas call 3), read as a value: the array it writes is the layer
  `max (x · w + b) 0` of the arrays it reads.

  The call walks 10 grid points. At point `t` it stages the 5000 rows of its `[50000, 256]` left operand that start at row
  `5000 · t`, the whole `[256, 128]` weight matrix and the whole `[1, 128]` bias row, and writes back the 5000 rows of the
  `[50000, 128]` result that start at row `5000 · t`. A row of `max (x · w + b) 0` depends on the same row of `x` only, so what
  point `t` writes back is block `t` of the one array `rowsRelu x w b`; the 10 blocks tile the result array (row `i` lies
  in block `i / 5000`), so after the call the array holds `rowsRelu x w b` whatever it held before.
-/
import proofs.«103565_j56057913147666_1_alg».proof.Proof.Gen.KernelIdeal.Frame
import proofs.«103565_j56057913147666_1_alg».proof.Proof.LibAffine
import Idealize.ShloMosaic.Lib.Pipeline.Value
import Idealize.ShloMosaic.Lib.ValueIdx

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the call is entered
variable (V : (c : Dev nD) → (b : Ref sig .tc) → Buf (Elt Ideal) ((c : Thread nD τ).loc b))

/-- The left operand, the weights and the bias row as the call finds them. -/
abbrev lhs (c : Dev nD) : Vec Ideal S50000x256 .f32 := V c (Pipeline.arrRef spec3 0)
abbrev wts (c : Dev nD) : Vec Ideal S256x128 .f32 := V c (Pipeline.arrRef spec3 1)
abbrev bias (c : Dev nD) : Vec Ideal S1x128 .f32 := V c (Pipeline.arrRef spec3 2)

theorem origin : (![0, 0] : Fin 2 → Nat) = fun _ => 0 := funext fun a => by fin_cases a <;> rfl

/-- The body's one store, at `(p, q)` of its block. -/
theorem stored_apply (x0 : Vec Ideal S5000x256 .f32) (x1 : Vec Ideal S256x128 .f32) (x2 : Vec Ideal S1x128 .f32)
    (p : Fin 5000) (q : Fin 128) : k3_pay1 x0 x1 x2 (ix2 p q) = Cert.LibAffine.rowsReluAt x0 x1 x2 p q := by
  unfold k3_pay1
  exact Cert.LibAffine.block_relu_apply dot_S5000x256_S256x128_S5000x128_1_0_0_1_n_n rfl rfl rfl rfl rfl rfl _ _ _ _ x0 x1 x2 p q

/-- The index maps over the grid: the left operand and the result move one block of rows per point, the weights and
    the bias stay. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of point `t`'s block of the left operand is row `5000·t + p` of the array. -/
theorem lhs_block (c : Dev nD) (t : Fin cfg3.N) (p : Fin 5000) (r : Fin 50000) (hr : r.val = t.val * 5000 + p.val) (k : Fin 256) :
    iblk3 V c 0 t (ix2 p k) = lhs V c (ix2 r k) := by
  obtain ⟨e0, e1, -, -, -, -, -, -⟩ := index_maps t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 256 + 1 * k.val = k.val; omega

/-- The weights' block is the whole matrix at every point. -/
theorem wts_block (c : Dev nD) (t : Fin cfg3.N) : iblk3 V c 1 t = wts V c := by
  obtain ⟨-, -, e2, e3, -, -, -, -⟩ := index_maps t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 256 + 1 * (y 0).val = (y 0).val; omega
  | ⟨1, _⟩ => show win3_1.index t (1 : Fin 2) * 128 + 1 * (y 1).val = (y 1).val; omega

/-- The bias row's block is the whole row at every point. -/
theorem bias_block (c : Dev nD) (t : Fin cfg3.N) : iblk3 V c 2 t = bias V c := by
  obtain ⟨-, -, -, -, e4, e5, -, -⟩ := index_maps t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- What point `t` writes back is block `t` of the affine layer of the arrays as the call finds them. -/
theorem flushed_eq (c : Dev nD) (t : Fin cfg3.N) :
    (dat3 V c).flushed 3 t
      = ((cfg3.win 3).blk t).view.read (Elt Ideal) (Cert.LibAffine.rowsRelu (lhs V c) (wts V c) (bias V c)) := by
  show (cfg3.win 3).cut (grid3.coords t) ((dat3 V c).after 3 t) = _
  rw [after3_3]
  unfold out3_3
  rw [View.canon_unit_zero origin]
  simp only [View.ld_unit_zero (S := S5000x256) origin, View.ld_unit_zero (S := S256x128) origin, View.ld_unit_zero (S := S1x128) origin]
  rw [wts_block V c t, bias_block V c t]
  obtain ⟨-, -, -, -, -, -, e6, e7⟩ := index_maps t
  funext j
  obtain ⟨p, q, rfl⟩ : ∃ (p : Fin 5000) (q : Fin 128), j = ix2 p q := ⟨j 0, j 1, eq_ix2 j⟩
  have hr : t.val * 5000 + p.val < 50000 := by
    have ht : t.val < 10 := Nat.lt_of_lt_of_eq t.isLt N_3
    have hp := p.isLt
    omega
  have hemb : ((cfg3.win 3).blk t).view.emb (ix2 p q) = ix2 (⟨t.val * 5000 + p.val, hr⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  show k3_pay1 (iblk3 V c 0 t) (wts V c) (bias V c) (ix2 p q)
    = Cert.LibAffine.rowsRelu (lhs V c) (wts V c) (bias V c) (((cfg3.win 3).blk t).view.emb (ix2 p q))
  rw [hemb, Cert.LibAffine.rowsRelu_ix2]
  refine (stored_apply (iblk3 V c 0 t) (wts V c) (bias V c) p q).trans ?_
  exact Cert.LibAffine.rowsReluAt_congr (lhs V c) (iblk3 V c 0 t) (wts V c) (bias V c) ⟨t.val * 5000 + p.val, hr⟩ p q
    (fun k => lhs_block V c t p ⟨t.val * 5000 + p.val, hr⟩ rfl k)

/-- An index of the result array is in point `t`'s block iff each coordinate is in the block's range on its axis. -/
theorem mem_block (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v47).slice (win3_3.rect t)).set ↔ _
  rw [View.set_slice_whole, Rect.mem_set_unit]
  exact Iff.rfl

/-- The blocks tile the result array: row `i` lies in the block of point `i / 5000`. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 5000 < cfg3.N := by rw [show cfg3.N = 10 from N_3]; omega
  obtain ⟨-, -, -, -, -, -, e6, e7⟩ := index_maps ⟨(i 0).val / 5000, ht⟩
  refine ⟨⟨(i 0).val / 5000, ht⟩, flush3_3 _, ?_⟩
  rw [mem_block]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e7]; omega

/-- After the call the result array holds the affine layer of the arrays the call found. -/
theorem result (c : Dev nD) :
    (dat3 V c).arrAt 3 cfg3.N = Cert.LibAffine.rowsRelu (lhs V c) (wts V c) (bias V c) :=
  (dat3 V c).arrAt_eq_of_cover 3 (Cert.LibAffine.rowsRelu (lhs V c) (wts V c) (bias V c))
    (fun t _ => flushed_eq V c t) covered

end Cert.KernelIdeal.Layer3

end
-- ==== Proof.Layer4.lean ====
/-
  The score layer of the kernel's program (pallas call 4), read as a value: the array it writes is the layer
  `x · w + b` of the arrays it reads.

  The call walks 100 grid points. At point `t` it stages the 8000 rows of its `[800000, 256]` left operand that start at row
  `8000 · t`, the whole `[256, 2]` weight matrix and the whole `[1, 2]` bias row, and writes back the 8000 rows of the
  `[800000, 2]` result that start at row `8000 · t`. A row of `x · w + b` depends on the same row of `x` only, so what
  point `t` writes back is block `t` of the one array `rows x w b`; the 100 blocks tile the result array (row `i` lies
  in block `i / 8000`), so after the call the array holds `rows x w b` whatever it held before.
-/
import proofs.«103565_j56057913147666_1_alg».proof.Proof.Gen.KernelIdeal.Frame
import proofs.«103565_j56057913147666_1_alg».proof.Proof.LibAffine
import Idealize.ShloMosaic.Lib.Pipeline.Value
import Idealize.ShloMosaic.Lib.ValueIdx

set_option maxRecDepth 16384

noncomputable section

namespace Cert.KernelIdeal.Layer4

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the call is entered
variable (V : (c : Dev nD) → (b : Ref sig .tc) → Buf (Elt Ideal) ((c : Thread nD τ).loc b))

/-- The left operand, the weights and the bias row as the call finds them. -/
abbrev lhs (c : Dev nD) : Vec Ideal S800000x256 .f32 := V c (Pipeline.arrRef spec4 0)
abbrev wts (c : Dev nD) : Vec Ideal S256x2 .f32 := V c (Pipeline.arrRef spec4 1)
abbrev bias (c : Dev nD) : Vec Ideal S1x2 .f32 := V c (Pipeline.arrRef spec4 2)

theorem origin : (![0, 0] : Fin 2 → Nat) = fun _ => 0 := funext fun a => by fin_cases a <;> rfl

/-- The body's one store, at `(p, q)` of its block. -/
theorem stored_apply (x0 : Vec Ideal S8000x256 .f32) (x1 : Vec Ideal S256x2 .f32) (x2 : Vec Ideal S1x2 .f32)
    (p : Fin 8000) (q : Fin 2) : k4_pay1 x0 x1 x2 (ix2 p q) = Cert.LibAffine.rowsAt x0 x1 x2 p q := by
  unfold k4_pay1
  exact Cert.LibAffine.block_apply dot_S8000x256_S256x2_S8000x2_1_0_0_1_n_n rfl rfl rfl rfl rfl rfl _ _ _ _ x0 x1 x2 p q

/-- The index maps over the grid: the left operand and the result move one block of rows per point, the weights and
    the bias stay. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of point `t`'s block of the left operand is row `8000·t + p` of the array. -/
theorem lhs_block (c : Dev nD) (t : Fin cfg4.N) (p : Fin 8000) (r : Fin 800000) (hr : r.val = t.val * 8000 + p.val) (k : Fin 256) :
    iblk4 V c 0 t (ix2 p k) = lhs V c (ix2 r k) := by
  obtain ⟨e0, e1, -, -, -, -, -, -⟩ := index_maps t
  show V c (Pipeline.arrRef spec4 0) (((cfg4.win 0).blk t).view.emb (ix2 p k)) = V c (Pipeline.arrRef spec4 0) (ix2 r k)
  refine congrArg _ (funext fun a => Fin.ext ?_)
  match a with
  | ⟨0, _⟩ => show win4_0.index t (0 : Fin 2) * 8000 + 1 * p.val = r.val; omega
  | ⟨1, _⟩ => show win4_0.index t (1 : Fin 2) * 256 + 1 * k.val = k.val; omega

/-- The weights' block is the whole matrix at every point. -/
theorem wts_block (c : Dev nD) (t : Fin cfg4.N) : iblk4 V c 1 t = wts V c := by
  obtain ⟨-, -, e2, e3, -, -, -, -⟩ := index_maps t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 256 + 1 * (y 0).val = (y 0).val; omega
  | ⟨1, _⟩ => show win4_1.index t (1 : Fin 2) * 2 + 1 * (y 1).val = (y 1).val; omega

/-- The bias row's block is the whole row at every point. -/
theorem bias_block (c : Dev nD) (t : Fin cfg4.N) : iblk4 V c 2 t = bias V c := by
  obtain ⟨-, -, -, -, e4, e5, -, -⟩ := index_maps t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 2 + 1 * (y 1).val = (y 1).val; omega

/-- What point `t` writes back is block `t` of the affine layer of the arrays as the call finds them. -/
theorem flushed_eq (c : Dev nD) (t : Fin cfg4.N) :
    (dat4 V c).flushed 3 t
      = ((cfg4.win 3).blk t).view.read (Elt Ideal) (Cert.LibAffine.rows (lhs V c) (wts V c) (bias V c)) := by
  show (cfg4.win 3).cut (grid4.coords t) ((dat4 V c).after 3 t) = _
  rw [after4_3]
  unfold out4_3
  rw [View.canon_unit_zero origin]
  simp only [View.ld_unit_zero (S := S8000x256) origin, View.ld_unit_zero (S := S256x2) origin, View.ld_unit_zero (S := S1x2) origin]
  rw [wts_block V c t, bias_block V c t]
  obtain ⟨-, -, -, -, -, -, e6, e7⟩ := index_maps t
  funext j
  obtain ⟨p, q, rfl⟩ : ∃ (p : Fin 8000) (q : Fin 2), j = ix2 p q := ⟨j 0, j 1, eq_ix2 j⟩
  have hr : t.val * 8000 + p.val < 800000 := by
    have ht : t.val < 100 := Nat.lt_of_lt_of_eq t.isLt N_4
    have hp := p.isLt
    omega
  have hemb : ((cfg4.win 3).blk t).view.emb (ix2 p q) = ix2 (⟨t.val * 8000 + p.val, hr⟩ : Fin 800000) q := by
    funext a; apply Fin.ext
    match a with
    | ⟨0, _⟩ => show win4_3.index t (0 : Fin 2) * 8000 + 1 * p.val = t.val * 8000 + p.val; omega
    | ⟨1, _⟩ => show win4_3.index t (1 : Fin 2) * 2 + 1 * q.val = q.val; omega
  show k4_pay1 (iblk4 V c 0 t) (wts V c) (bias V c) (ix2 p q)
    = Cert.LibAffine.rows (lhs V c) (wts V c) (bias V c) (((cfg4.win 3).blk t).view.emb (ix2 p q))
  rw [hemb, Cert.LibAffine.rows_ix2]
  refine (stored_apply (iblk4 V c 0 t) (wts V c) (bias V c) p q).trans ?_
  exact Cert.LibAffine.rowsAt_congr (lhs V c) (iblk4 V c 0 t) (wts V c) (bias V c) ⟨t.val * 8000 + p.val, hr⟩ p q
    (fun k => lhs_block V c t p ⟨t.val * 8000 + p.val, hr⟩ rfl k)

/-- An index of the result array is in point `t`'s block iff each coordinate is in the block's range on its axis. -/
theorem mem_block (t : Fin cfg4.N) (i : S800000x2.Idx) :
    i ∈ ((cfg4.win 3).blk t).view.set ↔ ∀ a : Fin 2, win4_3.index t a * S8000x2.size a ≤ (i a).val
      ∧ (i a).val < win4_3.index t a * S8000x2.size a + S8000x2.size a := by
  show i ∈ ((View.whole main_v64).slice (win4_3.rect t)).set ↔ _
  rw [View.set_slice_whole, Rect.mem_set_unit]
  exact Iff.rfl

/-- The blocks tile the result array: row `i` lies in the block of point `i / 8000`. -/
theorem covered (i : S800000x2.Idx) :
    ∃ t : Fin cfg4.N, (cfg4.win 3).flush t = true ∧ i ∈ ((cfg4.win 3).blk t).view.set := by
  have hi0 : (i 0).val < 800000 := (i 0).isLt
  have hi1 : (i 1).val < 2 := (i 1).isLt
  have ht : (i 0).val / 8000 < cfg4.N := by rw [show cfg4.N = 100 from N_4]; omega
  obtain ⟨-, -, -, -, -, -, e6, e7⟩ := index_maps ⟨(i 0).val / 8000, ht⟩
  refine ⟨⟨(i 0).val / 8000, ht⟩, flush4_3 _, ?_⟩
  rw [mem_block]
  intro a
  match a with
  | ⟨0, _⟩ =>
    show win4_3.index ⟨(i 0).val / 8000, ht⟩ (0 : Fin 2) * 8000 ≤ (i 0).val
      ∧ (i 0).val < win4_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win4_3.index ⟨(i 0).val / 8000, ht⟩ (1 : Fin 2) * 2 ≤ (i 1).val
      ∧ (i 1).val < win4_3.index ⟨(i 0).val / 8000, ht⟩ (1 : Fin 2) * 2 + 2
    rw [e7]; omega

/-- After the call the result array holds the affine layer of the arrays the call found. -/
theorem result (c : Dev nD) :
    (dat4 V c).arrAt 3 cfg4.N = Cert.LibAffine.rows (lhs V c) (wts V c) (bias V c) :=
  (dat4 V c).arrAt_eq_of_cover 3 (Cert.LibAffine.rows (lhs V c) (wts V c) (bias V c))
    (fun t _ => flushed_eq V c t) covered

end Cert.KernelIdeal.Layer4

end
-- ==== Proof.Chain.lean ====
/-
  The kernel's program, read as a value: at its return the result buffer holds the network of the argument arrays.

  The program alternates stretches of host operations with five pallas calls. Each stretch builds the next layer's
  input from buffers that still hold what earlier steps left (`Stage`, `Carry`); each call overwrites its result array
  with the affine layer of what it reads (`Layer0` … `Layer4`). Following the five results through the boundaries'
  contents gives the result buffer as `network` over the kernel's form of the three layers, and that form is the host's
  form of the same layers (`LibAffine.host_eq_rows`, `host_relu_eq_rowsRelu`), which is what the reference computes.
-/
import proofs.«103565_j56057913147666_1_alg».proof.Proof.Gen.KernelIdeal.Frame
import proofs.«103565_j56057913147666_1_alg».proof.Proof.Model
import proofs.«103565_j56057913147666_1_alg».proof.Proof.LibAffine
import proofs.«103565_j56057913147666_1_alg».proof.Proof.Stage
import proofs.«103565_j56057913147666_1_alg».proof.Proof.Carry
import proofs.«103565_j56057913147666_1_alg».proof.Proof.Layer0
import proofs.«103565_j56057913147666_1_alg».proof.Proof.Layer1
import proofs.«103565_j56057913147666_1_alg».proof.Proof.Layer2
import proofs.«103565_j56057913147666_1_alg».proof.Proof.Layer3
import proofs.«103565_j56057913147666_1_alg».proof.Proof.Layer4

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem Cert.Sage

variable (m : (ℓ : Loc nD τ sig) → Buf (Elt Ideal) ℓ) (ρ : Dev nD → PrngReg)

/-! ## The three layers in the kernel's form: the bias vector cast to a one-row matrix -/

def kL (x : (⟨S800000x192, .f32⟩ : BufTy).Contents (Elt Ideal)) (w : (⟨S192x128, .f32⟩ : BufTy).Contents (Elt Ideal))
    (b : (⟨S128, .f32⟩ : BufTy).Contents (Elt Ideal)) : (⟨S800000x128, .f32⟩ : BufTy).Contents (Elt Ideal) :=
  Cert.LibAffine.rows x w (shapeCast S1x128 b Facts₀.shapeCasts_S128_S1x128)

def kU (x : (⟨S50000x256, .f32⟩ : BufTy).Contents (Elt Ideal)) (w : (⟨S256x128, .f32⟩ : BufTy).Contents (Elt Ideal))
    (b : (⟨S128, .f32⟩ : BufTy).Contents (Elt Ideal)) : (⟨S50000x128, .f32⟩ : BufTy).Contents (Elt Ideal) :=
  Cert.LibAffine.rowsRelu x w (shapeCast S1x128 b Facts₀.shapeCasts_S128_S1x128)

def kS (x : (⟨S800000x256, .f32⟩ : BufTy).Contents (Elt Ideal)) (w : (⟨S256x2, .f32⟩ : BufTy).Contents (Elt Ideal))
    (b : (⟨S2, .f32⟩ : BufTy).Contents (Elt Ideal)) : (⟨S800000x2, .f32⟩ : BufTy).Contents (Elt Ideal) :=
  Cert.LibAffine.rows x w (shapeCast S1x2 b Facts₀.shapeCasts_S2_S1x2)

theorem kL_eq : kL = hostL (F := Ideal) := by
  funext x w b
  exact (Cert.LibAffine.host_eq_rows Cert.ReferenceIdeal.dot_S800000x192_S192x128_S800000x128_1_0_0_1_n_n rfl rfl rfl rfl rfl rfl _ _ _ x w b).symm

theorem kU_eq : kU = hostU (F := Ideal) := by
  funext x w b
  exact (Cert.LibAffine.host_relu_eq_rowsRelu Cert.ReferenceIdeal.dot_S50000x256_S256x128_S50000x128_1_0_0_1_n_n rfl rfl rfl rfl rfl rfl _ _ _ _ x w b).symm

theorem kS_eq : kS = hostS (F := Ideal) := by
  funext x w b
  exact (Cert.LibAffine.host_eq_rows Cert.ReferenceIdeal.dot_S800000x256_S256x2_S800000x2_1_0_0_1_n_n rfl rfl rfl rfl rfl rfl _ _ _ x w b).symm

/-! ## The five results, each over the launch contents of the arguments -/

/-- The first layer's messages. -/
def msg1 (c : Dev nD) : (⟨S800000x128, .f32⟩ : BufTy).Contents (Elt Ideal) :=
  kL (msgIn (F := Ideal) (m ((c : Thread nD τ).loc main_arg0)) (m ((c : Thread nD τ).loc main_arg1)) (m ((c : Thread nD τ).loc main_arg2)))
    (m ((c : Thread nD τ).loc main_arg4)) (m ((c : Thread nD τ).loc main_arg5))

/-- The nodes after the first layer. -/
def node1 (c : Dev nD) : (⟨S50000x128, .f32⟩ : BufTy).Contents (Elt Ideal) :=
  kU (updIn (F := Ideal) (m ((c : Thread nD τ).loc main_arg0)) (msg1 m c) (m ((c : Thread nD τ).loc main_arg3)))
    (m ((c : Thread nD τ).loc main_arg6)) (m ((c : Thread nD τ).loc main_arg7))

/-- The second layer's messages. -/
def msg2 (c : Dev nD) : (⟨S800000x128, .f32⟩ : BufTy).Contents (Elt Ideal) :=
  kL (msgIn (F := Ideal) (node1 m c) (m ((c : Thread nD τ).loc main_arg1)) (m ((c : Thread nD τ).loc main_arg2)))
    (m ((c : Thread nD τ).loc main_arg8)) (m ((c : Thread nD τ).loc main_arg9))

/-- The nodes after the second layer. -/
def node2 (c : Dev nD) : (⟨S50000x128, .f32⟩ : BufTy).Contents (Elt Ideal) :=
  kU (updIn (F := Ideal) (node1 m c) (msg2 m c) (m ((c : Thread nD τ).loc main_arg3)))
    (m ((c : Thread nD τ).loc main_arg10)) (m ((c : Thread nD τ).loc main_arg11))

/-- The edges' scores. -/
def scores (c : Dev nD) : (⟨S800000x2, .f32⟩ : BufTy).Contents (Elt Ideal) :=
  kS (predIn (F := Ideal) (node2 m c) (m ((c : Thread nD τ).loc main_arg2)) (m ((c : Thread nD τ).loc main_arg3)))
    (m ((c : Thread nD τ).loc main_arg12)) (m ((c : Thread nD τ).loc main_arg13))

/-! ## The boundaries' contents -/

/-- After the first message layer its result buffer holds the first messages. -/
theorem at2_msg1 (c : Dev nD) : W2 m ρ c (Proc.devRef .tc main_v9) = msg1 m c := by
  refine (W2_arr m ρ c 3).trans ((Cert.KernelIdeal.Layer0.result (V1 m ρ) c).trans ?_)
  show Cert.LibAffine.rows (after (hostOps0 (F := Ideal)) (W0 m ρ c) (Proc.devRef .tc main_v7))
      (after (hostOps0 (F := Ideal)) (W0 m ρ c) (Proc.devRef .tc main_arg4))
      (after (hostOps0 (F := Ideal)) (W0 m ρ c) (Proc.devRef .tc main_v8)) = _
  rw [Stretches.s0_x, Stretches.s0_w, Stretches.s0_b]
  rfl

/-- After the first update layer its result buffer holds the nodes of the first layer. -/
theorem at4_node1 (c : Dev nD) : W4 m ρ c (Proc.devRef .tc main_v23) = node1 m c := by
  refine (W4_arr m ρ c 3).trans ((Cert.KernelIdeal.Layer1.result (V3 m ρ) c).trans ?_)
  show Cert.LibAffine.rowsRelu (after (hostOps1 (F := Ideal)) (W2 m ρ c) (Proc.devRef .tc main_v21))
      (after (hostOps1 (F := Ideal)) (W2 m ρ c) (Proc.devRef .tc main_arg6))
      (after (hostOps1 (F := Ideal)) (W2 m ρ c) (Proc.devRef .tc main_v22)) = _
  rw [Stretches.s1_x, Stretches.s1_w, Stretches.s1_b, at2_msg1,
    Carry.arg_at2 m ρ c main_arg0 (by decide), Carry.arg_at2 m ρ c main_arg3 (by decide),
    Carry.arg_at2 m ρ c main_arg6 (by decide), Carry.arg_at2 m ρ c main_arg7 (by decide)]
  rfl

/-- After the second message layer its result buffer holds the second messages. -/
theorem at6_msg2 (c : Dev nD) : W6 m ρ c (Proc.devRef .tc main_v33) = msg2 m c := by
  refine (W6_arr m ρ c 3).trans ((Cert.KernelIdeal.Layer2.result (V5 m ρ) c).trans ?_)
  show Cert.LibAffine.rows (after (hostOps2 (F := Ideal)) (W4 m ρ c) (Proc.devRef .tc main_v31))
      (after (hostOps2 (F := Ideal)) (W4 m ρ c) (Proc.devRef .tc main_arg8))
      (after (hostOps2 (F := Ideal)) (W4 m ρ c) (Proc.devRef .tc main_v32)) = _
  rw [Stretches.s2_x, Stretches.s2_w, Stretches.s2_b, at4_node1,
    Carry.arg_at4 m ρ c main_arg1 (by decide) (by decide), Carry.arg_at4 m ρ c main_arg2 (by decide) (by decide),
    Carry.arg_at4 m ρ c main_arg8 (by decide) (by decide), Carry.arg_at4 m ρ c main_arg9 (by decide) (by decide)]
  rfl

/-- After the second update layer its result buffer holds the nodes of the second layer. -/
theorem at8_node2 (c : Dev nD) : W8 m ρ c (Proc.devRef .tc main_v47) = node2 m c := by
  refine (W8_arr m ρ c 3).trans ((Cert.KernelIdeal.Layer3.result (V7 m ρ) c).trans ?_)
  show Cert.LibAffine.rowsRelu (after (hostOps3 (F := Ideal)) (W6 m ρ c) (Proc.devRef .tc main_v45))
      (after (hostOps3 (F := Ideal)) (W6 m ρ c) (Proc.devRef .tc main_arg10))
      (after (hostOps3 (F := Ideal)) (W6 m ρ c) (Proc.devRef .tc main_v46)) = _
  rw [Stretches.s3_x, Stretches.s3_w, Stretches.s3_b, at6_msg2, Carry.h1_at6, at4_node1,
    Carry.arg_at6 m ρ c main_arg3 (by decide) (by decide) (by decide), Carry.arg_at6 m ρ c main_arg10 (by decide) (by decide) (by decide),
    Carry.arg_at6 m ρ c main_arg11 (by decide) (by decide) (by decide)]
  rfl

/-- At the return the result buffer holds the scores. -/
theorem at10_scores (c : Dev nD) : W10 m ρ c (Proc.devRef .tc main_v64) = scores m c := by
  refine (W10_arr m ρ c 3).trans ((Cert.KernelIdeal.Layer4.result (V9 m ρ) c).trans ?_)
  show Cert.LibAffine.rows (after (hostOps4 (F := Ideal)) (W8 m ρ c) (Proc.devRef .tc main_v62))
      (after (hostOps4 (F := Ideal)) (W8 m ρ c) (Proc.devRef .tc main_arg12))
      (after (hostOps4 (F := Ideal)) (W8 m ρ c) (Proc.devRef .tc main_v63)) = _
  rw [Stretches.s4_x, Stretches.s4_w, Stretches.s4_b, at8_node2,
    Carry.arg_at8 m ρ c main_arg2 (by decide) (by decide) (by decide) (by decide), Carry.arg_at8 m ρ c main_arg3 (by decide) (by decide) (by decide) (by decide),
    Carry.arg_at8 m ρ c main_arg12 (by decide) (by decide) (by decide) (by decide), Carry.arg_at8 m ρ c main_arg13 (by decide) (by decide) (by decide) (by decide)]
  rfl

/-- The scores are the network of the argument arrays, over the host's form of the three layers. -/
theorem scores_eq (c : Dev nD) : scores m c
    = network (F := Ideal) hostL hostU hostS
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  rw [← kL_eq, ← kU_eq, ← kS_eq]
  rfl

end Cert.KernelIdeal.Chain

end
-- ==== Proof.RefRun.lean ====
/-
  The reference program's run, read five stretches at a time.

  The reference's @main is one line of 97 host operations. Cut after each affine layer it is five stretches; from any
  contents `W` of the buffers, each stretch leaves in its last buffer one layer of the network applied to contents
  `W` held (`stretch0` … `stretch4`: the message inputs through the host's message layer, the update inputs through the
  host's update layer, and at the end the score inputs through the score layer). No operation writes an argument
  buffer (`kept0` … `kept4`), and the first update layer's result is not written while the second message layer is
  computed, so folding the five stretches from the launch contents gives `network hostL hostU hostS` of the argument
  arrays in the result buffer, the arguments unchanged.
-/
import proofs.«103565_j56057913147666_1_alg».proof.Proof.RefOps
import proofs.«103565_j56057913147666_1_alg».proof.Proof.Model
import Idealize.ShloMosaic.Lib.Pipeline.Frame

set_option maxRecDepth 16384

noncomputable section

namespace Cert.ReferenceIdeal.Staged

open Cert.ReferenceIdeal Cert.ReferenceIdeal.ValueP
open Idealize.ShloMosaic Idealize.ShloMosaic.TcCoe Idealize.ShloMosaic.StableHlo Idealize.SL.Sem Cert.Sage

variable {F : FTy → Type} [FloatOps F]

/-! ## Each stretch as a layer of the network -/

section Stretches

variable (W : Valuation τ sig (Elt F))

set_option maxHeartbeats 4000000 in
theorem stretch0 : after (ops0 (F := F)) W (Proc.devRef .tc main_v11)
    = hostL (F := F) (msgIn (F := F) (W (Proc.devRef .tc main_arg0)) (W (Proc.devRef .tc main_arg1)) (W (Proc.devRef .tc main_arg2))) (W (Proc.devRef .tc main_arg4)) (W (Proc.devRef .tc main_arg5)) := by
  dsimp only [ops0]; after_results; rfl

set_option maxHeartbeats 4000000 in
theorem stretch1 : after (ops1 (F := F)) W (Proc.devRef .tc main_v28)
    = hostU (F := F) (updIn (F := F) (W (Proc.devRef .tc main_arg0)) (W (Proc.devRef .tc main_v11)) (W (Proc.devRef .tc main_arg3))) (W (Proc.devRef .tc main_arg6)) (W (Proc.devRef .tc main_arg7)) := by
  dsimp only [ops1]; after_results
  simp only [TRef.ofBuf, TRef.toBuf, cast_eq]
  rfl

set_option maxHeartbeats 4000000 in
theorem stretch2 : after (ops2 (F := F)) W (Proc.devRef .tc main_v40)
    = hostL (F := F) (msgIn (F := F) (W (Proc.devRef .tc main_v28)) (W (Proc.devRef .tc main_arg1)) (W (Proc.devRef .tc main_arg2))) (W (Proc.devRef .tc main_arg8)) (W (Proc.devRef .tc main_arg9)) := by
  dsimp only [ops2]; after_results; rfl

set_option maxHeartbeats 4000000 in
theorem stretch3 : after (ops3 (F := F)) W (Proc.devRef .tc main_v57)
    = hostU (F := F) (updIn (F := F) (W (Proc.devRef .tc main_v28)) (W (Proc.devRef .tc main_v40)) (W (Proc.devRef .tc main_arg3))) (W (Proc.devRef .tc main_arg10)) (W (Proc.devRef .tc main_arg11)) := by
  dsimp only [ops3]; after_results
  simp only [TRef.ofBuf, TRef.toBuf, cast_eq]
  rfl

set_option maxHeartbeats 4000000 in
theorem stretch4 : after (ops4 (F := F)) W (Proc.devRef .tc main_v76)
    = hostS (F := F) (predIn (F := F) (W (Proc.devRef .tc main_v57)) (W (Proc.devRef .tc main_arg2)) (W (Proc.devRef .tc main_arg3))) (W (Proc.devRef .tc main_arg12)) (W (Proc.devRef .tc main_arg13)) := by
  dsimp only [ops4]; after_results; rfl

/-! ## What the stretches leave alone -/

/-- The fourteen argument buffers. -/
abbrev argRefs : List (Ref sig .tc) :=
  [main_arg0, main_arg1, main_arg2, main_arg3, main_arg4, main_arg5, main_arg6, main_arg7, main_arg8, main_arg9,
    main_arg10, main_arg11, main_arg12, main_arg13]

/-- A buffer no operation of the stretch writes keeps its contents: the operations' written buffers are listed and
    each is another reference. -/
local macro "untouched " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem kept0 : ∀ b ∈ argRefs, after (ops0 (F := F)) W (Proc.devRef .tc b) = W (Proc.devRef .tc b) := by
  intro b hb
  simp only [argRefs, List.mem_cons, List.not_mem_nil, or_false] at hb
  rcases hb with rfl | rfl | rfl | rfl | rfl | rfl | rfl | rfl | rfl | rfl | rfl | rfl | rfl | rfl
  all_goals untouched ops0

theorem kept1 : ∀ b ∈ argRefs, after (ops1 (F := F)) W (Proc.devRef .tc b) = W (Proc.devRef .tc b) := by
  intro b hb
  simp only [argRefs, List.mem_cons, List.not_mem_nil, or_false] at hb
  rcases hb with rfl | rfl | rfl | rfl | rfl | rfl | rfl | rfl | rfl | rfl | rfl | rfl | rfl | rfl
  all_goals untouched ops1

theorem kept2 : ∀ b ∈ argRefs, after (ops2 (F := F)) W (Proc.devRef .tc b) = W (Proc.devRef .tc b) := by
  intro b hb
  simp only [argRefs, List.mem_cons, List.not_mem_nil, or_false] at hb
  rcases hb with rfl | rfl | rfl | rfl | rfl | rfl | rfl | rfl | rfl | rfl | rfl | rfl | rfl | rfl
  all_goals untouched ops2

theorem kept3 : ∀ b ∈ argRefs, after (ops3 (F := F)) W (Proc.devRef .tc b) = W (Proc.devRef .tc b) := by
  intro b hb
  simp only [argRefs, List.mem_cons, List.not_mem_nil, or_false] at hb
  rcases hb with rfl | rfl | rfl | rfl | rfl | rfl | rfl | rfl | rfl | rfl | rfl | rfl | rfl | rfl
  all_goals untouched ops3

theorem kept4 : ∀ b ∈ argRefs, after (ops4 (F := F)) W (Proc.devRef .tc b) = W (Proc.devRef .tc b) := by
  intro b hb
  simp only [argRefs, List.mem_cons, List.not_mem_nil, or_false] at hb
  rcases hb with rfl | rfl | rfl | rfl | rfl | rfl | rfl | rfl | rfl | rfl | rfl | rfl | rfl | rfl
  all_goals untouched ops4

/-- The third stretch does not write the first update layer's result. -/
theorem nodes_kept2 : after (ops2 (F := F)) W (Proc.devRef .tc main_v28) = W (Proc.devRef .tc main_v28) := by
  untouched ops2

end Stretches

/-! ## The fold from the launch contents -/

section Fold

variable (W0 : Valuation τ sig (Elt F))

/-- The buffers after the first stretch, …, after the fourth. -/
abbrev V1 : Valuation τ sig (Elt F) := after (ops0 (F := F)) W0
abbrev V2 : Valuation τ sig (Elt F) := after (ops1 (F := F)) (V1 W0)
abbrev V3 : Valuation τ sig (Elt F) := after (ops2 (F := F)) (V2 W0)
abbrev V4 : Valuation τ sig (Elt F) := after (ops3 (F := F)) (V3 W0)
abbrev V5 : Valuation τ sig (Elt F) := after (ops4 (F := F)) (V4 W0)

theorem after_ops : after (ops (F := F)) W0 = V5 W0 := by
  rw [ops_split, after_append, after_append, after_append, after_append]

theorem arg1 (b : Ref sig .tc) (hb : b ∈ argRefs) : V1 W0 (Proc.devRef .tc b) = W0 (Proc.devRef .tc b) := kept0 W0 b hb
theorem arg2 (b : Ref sig .tc) (hb : b ∈ argRefs) : V2 W0 (Proc.devRef .tc b) = W0 (Proc.devRef .tc b) :=
  (kept1 (V1 W0) b hb).trans (arg1 W0 b hb)
theorem arg3 (b : Ref sig .tc) (hb : b ∈ argRefs) : V3 W0 (Proc.devRef .tc b) = W0 (Proc.devRef .tc b) :=
  (kept2 (V2 W0) b hb).trans (arg2 W0 b hb)
theorem arg4 (b : Ref sig .tc) (hb : b ∈ argRefs) : V4 W0 (Proc.devRef .tc b) = W0 (Proc.devRef .tc b) :=
  (kept3 (V3 W0) b hb).trans (arg3 W0 b hb)
/-- An argument buffer ends holding its launch contents. -/
theorem arg5 (b : Ref sig .tc) (hb : b ∈ argRefs) : V5 W0 (Proc.devRef .tc b) = W0 (Proc.devRef .tc b) :=
  (kept4 (V4 W0) b hb).trans (arg4 W0 b hb)

/-- The first layer's messages, the nodes after it, the second layer's messages, the nodes after it, the scores:
    over the launch contents of the arguments. -/
def msg1 : (⟨S800000x128, .f32⟩ : BufTy).Contents (Elt F) :=
  hostL (F := F) (msgIn (F := F) (W0 (Proc.devRef .tc main_arg0)) (W0 (Proc.devRef .tc main_arg1)) (W0 (Proc.devRef .tc main_arg2))) (W0 (Proc.devRef .tc main_arg4)) (W0 (Proc.devRef .tc main_arg5))
def node1 : (⟨S50000x128, .f32⟩ : BufTy).Contents (Elt F) :=
  hostU (F := F) (updIn (F := F) (W0 (Proc.devRef .tc main_arg0)) (msg1 W0) (W0 (Proc.devRef .tc main_arg3))) (W0 (Proc.devRef .tc main_arg6)) (W0 (Proc.devRef .tc main_arg7))
def msg2 : (⟨S800000x128, .f32⟩ : BufTy).Contents (Elt F) :=
  hostL (F := F) (msgIn (F := F) (node1 W0) (W0 (Proc.devRef .tc main_arg1)) (W0 (Proc.devRef .tc main_arg2))) (W0 (Proc.devRef .tc main_arg8)) (W0 (Proc.devRef .tc main_arg9))
def node2 : (⟨S50000x128, .f32⟩ : BufTy).Contents (Elt F) :=
  hostU (F := F) (updIn (F := F) (node1 W0) (msg2 W0) (W0 (Proc.devRef .tc main_arg3))) (W0 (Proc.devRef .tc main_arg10)) (W0 (Proc.devRef .tc main_arg11))
def scores : (⟨S800000x2, .f32⟩ : BufTy).Contents (Elt F) :=
  hostS (F := F) (predIn (F := F) (node2 W0) (W0 (Proc.devRef .tc main_arg2)) (W0 (Proc.devRef .tc main_arg3))) (W0 (Proc.devRef .tc main_arg12)) (W0 (Proc.devRef .tc main_arg13))

theorem at1_msg1 : V1 W0 (Proc.devRef .tc main_v11) = msg1 W0 := stretch0 W0

theorem at2_node1 : V2 W0 (Proc.devRef .tc main_v28) = node1 W0 := by
  refine (stretch1 (V1 W0)).trans ?_
  rw [at1_msg1, arg1 W0 main_arg0 (by decide), arg1 W0 main_arg3 (by decide), arg1 W0 main_arg6 (by decide),
    arg1 W0 main_arg7 (by decide)]
  rfl

theorem at3_node1 : V3 W0 (Proc.devRef .tc main_v28) = node1 W0 := (nodes_kept2 (V2 W0)).trans (at2_node1 W0)

theorem at3_msg2 : V3 W0 (Proc.devRef .tc main_v40) = msg2 W0 := by
  refine (stretch2 (V2 W0)).trans ?_
  rw [at2_node1, arg2 W0 main_arg1 (by decide), arg2 W0 main_arg2 (by decide), arg2 W0 main_arg8 (by decide),
    arg2 W0 main_arg9 (by decide)]
  rfl

theorem at4_node2 : V4 W0 (Proc.devRef .tc main_v57) = node2 W0 := by
  refine (stretch3 (V3 W0)).trans ?_
  rw [at3_node1, at3_msg2, arg3 W0 main_arg3 (by decide), arg3 W0 main_arg10 (by decide), arg3 W0 main_arg11 (by decide)]
  rfl

theorem at5_scores : V5 W0 (Proc.devRef .tc main_v76) = scores W0 := by
  refine (stretch4 (V4 W0)).trans ?_
  rw [at4_node2, arg4 W0 main_arg2 (by decide), arg4 W0 main_arg3 (by decide), arg4 W0 main_arg12 (by decide),
    arg4 W0 main_arg13 (by decide)]
  rfl

/-- The result buffer ends holding the network of the arguments' launch contents. -/
theorem result_eq : after (ops (F := F)) W0 (Proc.devRef .tc main_v76)
    = network (F := F) hostL hostU hostS (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6))
        (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) := by
  rw [after_ops]
  exact at5_scores W0

theorem arg_end (b : Ref sig .tc) (hb : b ∈ argRefs) : after (ops (F := F)) W0 (Proc.devRef .tc b) = W0 (Proc.devRef .tc b) := by
  rw [after_ops]
  exact arg5 W0 b hb

end Fold

/-! ## The run -/

/-- Every weakly fair execution of the reference's @main terminates with the result buffer at the network of the
    argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
        = network (F := F) hostL hostU hostS
            (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c main_v76).trans (result_eq (launchContents m c)),
       (h c main_arg0).trans (arg_end (launchContents m c) main_arg0 (by decide)),
       (h c main_arg1).trans (arg_end (launchContents m c) main_arg1 (by decide)),
       (h c main_arg2).trans (arg_end (launchContents m c) main_arg2 (by decide)),
       (h c main_arg3).trans (arg_end (launchContents m c) main_arg3 (by decide)),
       (h c main_arg4).trans (arg_end (launchContents m c) main_arg4 (by decide)),
       (h c main_arg5).trans (arg_end (launchContents m c) main_arg5 (by decide)),
       (h c main_arg6).trans (arg_end (launchContents m c) main_arg6 (by decide)),
       (h c main_arg7).trans (arg_end (launchContents m c) main_arg7 (by decide)),
       (h c main_arg8).trans (arg_end (launchContents m c) main_arg8 (by decide)),
       (h c main_arg9).trans (arg_end (launchContents m c) main_arg9 (by decide)),
       (h c main_arg10).trans (arg_end (launchContents m c) main_arg10 (by decide)),
       (h c main_arg11).trans (arg_end (launchContents m c) main_arg11 (by decide)),
       (h c main_arg12).trans (arg_end (launchContents m c) main_arg12 (by decide)),
       (h c main_arg13).trans (arg_end (launchContents m c) main_arg13 (by decide))⟩)
    (run_seq scopedRefs_eq scopedSems_eq defs main (fun _ => ops) main_eq (fun _ => ops_sub) m ρ)

end Cert.ReferenceIdeal.Staged

end
-- ==== Proof.lean ====
/-
  The certificate of the edge-conditioned two-layer graph network (two message/update layers and an edge scorer).

  Both programs compute one function of the fourteen argument arrays, `Cert.Sage.network`: gathers of node rows by the
  edges' source and destination words, concatenations, a scatter-sum of messages into destination nodes divided by the
  in-degree (at least one), and five affine layers. The reference states each affine layer on the host (a `dot_general`,
  the bias vector spread down the rows, for the update layers a maximum with zero); the kernel's program states it as a
  pallas call that walks blocks of rows, multiplying each block (narrowed to half precision, which is the identity on the
  extended reals) into a zero accumulator and adding the bias as a one-row matrix. Entry `(p, q)` of either form is
  `∑ k, x (p, k) · w (k, q) + b q` (under the maximum with zero for the update layers), so the two programs agree entry by
  entry with no appeal to finiteness of the inputs; every other operation is the same operation in both programs.

  * `Model`      the network and the host's form of its layers;
  * `LibAffine`  an affine layer at an index, in both forms;
  * `Layer0` … `Layer4`  each pallas call's result array as the layer of the arrays it reads;
  * `Stage`, `Carry`  the host stretches as the network's stages, and the buffers nothing overwrites;
  * `Chain`      the kernel program's result buffer as the network of the arguments;
  * `KernelRun`  the kernel program's run with its result buffer named;
  * `RefOps`, `RefRun`  the reference's operations as five stretches, and its run with the result buffer at the network
    of the arguments.
  The frames of the two kernel programs are the generated ones; the reference's frame is its run with the result dropped.
-/
import proofs.«103565_j56057913147666_1_alg».proof.Defs
import proofs.«103565_j56057913147666_1_alg».proof.Proof.Gen.Kernel
import proofs.«103565_j56057913147666_1_alg».proof.Proof.Gen.Kernel.Skeleton
import proofs.«103565_j56057913147666_1_alg».proof.Proof.Gen.Kernel.Launch
import proofs.«103565_j56057913147666_1_alg».proof.Proof.Gen.Kernel.Points
import proofs.«103565_j56057913147666_1_alg».proof.Proof.Gen.Kernel.Frame
import proofs.«103565_j56057913147666_1_alg».proof.Proof.Gen.KernelIdeal
import proofs.«103565_j56057913147666_1_alg».proof.Proof.Gen.KernelIdeal.Skeleton
import proofs.«103565_j56057913147666_1_alg».proof.Proof.Gen.KernelIdeal.Launch
import proofs.«103565_j56057913147666_1_alg».proof.Proof.Gen.KernelIdeal.Points
import proofs.«103565_j56057913147666_1_alg».proof.Proof.Gen.KernelIdeal.Frame
import proofs.«103565_j56057913147666_1_alg».proof.Proof.Gen.ReferenceIdeal
import proofs.«103565_j56057913147666_1_alg».proof.Proof.Gen.Pre_finite_inputs
import proofs.«103565_j56057913147666_1_alg».proof.Proof.KernelRun
import proofs.«103565_j56057913147666_1_alg».proof.Proof.Chain
import proofs.«103565_j56057913147666_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- Both programs end with the network of the argument arrays in their result buffers: the kernel's program by the
    chain of its five layers, the reference by its five stretches; the arguments agree, so the results do. -/
theorem algebraic : Cert.algebraic_KernelIdeal_ReferenceIdeal := by
  intro m ρ m' ρ' _ hagree
  refine ⟨fun c => Cert.KernelIdeal.Chain.scores m c, ?_, ?_⟩
  · exact (θ_run Cert.KernelIdeal.defs _ _).mono
      (fun r h c => ⟨(h c).1.trans (Cert.KernelIdeal.Chain.at10_scores m ρ c), (h c).2⟩)
      (Cert.KernelIdeal.Launched.run_result m ρ)
  · refine (θ_run Cert.ReferenceIdeal.defs _ _).mono (fun r h c => ⟨(h c).1.trans ?_, (h c).2⟩)
      (Cert.ReferenceIdeal.Staged.run (F := Ideal) m' ρ')
    obtain ⟨h0, h1, h2, h3, h4, h5, h6, h7, h8, h9, h10, h11, h12, h13⟩ := hagree c
    rw [h0, h1, h2, h3, h4, h5, h6, h7, h8, h9, h10, h11, h12, h13]
    exact (Cert.KernelIdeal.Chain.scores_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
